-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x800000 : Shape := ⟨2, ![2, 800000]⟩
abbrev S2x400000 : Shape := ⟨2, ![2, 400000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S32x1 .f32) (main_arg10 : FVec F S1 .f32) (main_v33 : IVec S_ 1) : IVec S_ 1 :=
  let main_v34 : FVec F S32x1 .f32 := Host.absf main_arg9
  let main_cst_12 : FVec F S_ .f32 := constant S_ .f32 0x7F800000#32
  let main_v35 : FVec F S32x1 .f32 := broadcastInDim S32x1 ![] bcast_S_S32x1 main_cst_12
  let main_v36 : IVec S32x1 1 := cmpf .olt main_v34 main_v35
  let main_c_13 : IVec S_ 1 := constantI S_ 1 1#1
  let main_v37 : IVec S_ 1 := (fun x v => Host.reduce IntOp.andi x v reducesTo_S32x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S128 .f32) (main_arg7 : FVec F S128x32 .f32) (main_arg8 : FVec F S32 .f32) (main_arg9 : FVec F S32x1 .f32) (main_arg10 : FVec F S1 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x32 .f32 := Host.absf main_arg7
  let main_cst_8 : FVec F S_ .f32 := constant S_ .f32 0x7F800000#32
  let main_v25 : FVec F S128x32 .f32 := broadcastInDim S128x32 ![] bcast_S_S128x32 main_cst_8
  let main_v26 : IVec S128x32 1 := cmpf .olt main_v24 main_v25
  let main_c_9 : IVec S_ 1 := constantI S_ 1 1#1
  let main_v27 : IVec S_ 1 := (fun x v => Host.reduce IntOp.andi x v reducesTo_S128x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_v33

def fn {F : FTy → Type} [FloatOps F] (main_arg0 : FVec F S100000x256 .f32) (main_arg1 : IVec S2x800000 32) (main_arg2 : IVec S2x400000 32) (main_arg3 : FVec F S256x256 .f32) (main_arg4 : FVec F S256 .f32) (main_arg5 : FVec F S256x128 .f32) (main_arg6 : FVec F S128 .f32) (main_arg7 : FVec F S128x32 .f32) (main_arg8 : FVec F S32 .f32) (main_arg9 : FVec F S32x1 .f32) (main_arg10 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_arg7 main_arg8 main_arg9 main_arg10 main_v13 main_v16
-- ==== Kernel.lean ====
abbrev S100000x256 : Shape := ⟨2, ![100000, 256]⟩
abbrev S2x800000 : Shape := ⟨2, ![2, 800000]⟩
abbrev S2x400000 : Shape := ⟨2, ![2, 400000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S5000x256 : Shape := ⟨2, ![5000, 256]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S900000x256 : Shape := ⟨2, ![900000, 256]⟩
abbrev S1x256 : Shape := ⟨2, ![1, 256]⟩
abbrev S1x400000 : Shape := ⟨2, ![1, 400000]⟩
abbrev S400000 : Shape := ⟨1, ![400000]⟩
abbrev S400000x1 : Shape := ⟨2, ![400000, 1]⟩
abbrev S400000x256 : Shape := ⟨2, ![400000, 256]⟩
abbrev S1x128 : Shape := ⟨2, ![1, 128]⟩
abbrev S1x32 : Shape := ⟨2, ![1, 32]⟩
abbrev S1x1 : Shape := ⟨2, ![1, 1]⟩
abbrev S4000x256 : Shape := ⟨2, ![4000, 256]⟩
abbrev S4000x1 : Shape := ⟨2, ![4000, 1]⟩
abbrev S4000x128 : Shape := ⟨2, ![4000, 128]⟩
abbrev S4000x32 : Shape := ⟨2, ![4000, 32]⟩

abbrev nBuf : Space → Nat
  | .hbm => 101
  | .vmem => 17
  | .smem => 0
  | _ => 0

abbrev bufTy : (tb : Table) → Fin (tcTables nBuf tb) → BufTy
  | .hbm, ⟨0, _⟩ => ⟨S100000x256, .f32⟩
  | .hbm, ⟨1, _⟩ => ⟨S2x800000, .i32⟩
  | .hbm, ⟨2, _⟩ => ⟨S2x400000, .i32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x32, .f32⟩
  | .hbm, ⟨8, _⟩ => ⟨S32, .f32⟩
  | .hbm, ⟨9, _⟩ => ⟨S32x1, .f32⟩
  | .hbm, ⟨10, _⟩ => ⟨S1, .f32⟩
  | .hbm, ⟨11, _⟩ => ⟨S100000x256, .f32⟩
  | .hbm, ⟨12, _⟩ => ⟨S100000, .i32⟩
  | .hbm, ⟨13, _⟩ => ⟨S1x800000, .i32⟩
  | .hbm, ⟨14, _⟩ => ⟨S800000, .i32⟩
  | .hbm, ⟨15, _⟩ => ⟨S900000, .i32⟩
  | .hbm, ⟨16, _⟩ => ⟨S1x800000, .i32⟩
  | .hbm, ⟨17, _⟩ => ⟨S800000, .i32⟩
  | .hbm, ⟨18, _⟩ => ⟨S900000, .i32⟩
  | .hbm, ⟨19, _⟩ => ⟨S_, .f32⟩
  | .hbm, ⟨20, _⟩ => ⟨S900000, .f32⟩
  | .hbm, ⟨21, _⟩ => ⟨S_, .f32⟩
  | .hbm, ⟨22, _⟩ => ⟨S100000, .f32⟩
  | .hbm, ⟨23, _⟩ => ⟨S900000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S900000, .i32⟩
  | .hbm, ⟨38, _⟩ => ⟨S900000, .i1⟩
  | .hbm, ⟨39, _⟩ => ⟨S_, .i32⟩
  | .hbm, ⟨40, _⟩ => ⟨S900000, .i32⟩
  | .hbm, ⟨41, _⟩ => ⟨S900000, .i32⟩
  | .hbm, ⟨42, _⟩ => ⟨S900000, .i32⟩
  | .hbm, ⟨43, _⟩ => ⟨S900000x1, .i32⟩
  | .hbm, ⟨44, _⟩ => ⟨S900000, .f32⟩
  | .hbm, ⟨45, _⟩ => ⟨S_, .i32⟩
  | .hbm, ⟨46, _⟩ => ⟨S900000, .i32⟩
  | .hbm, ⟨47, _⟩ => ⟨S900000, .i1⟩
  | .hbm, ⟨48, _⟩ => ⟨S_, .i32⟩
  | .hbm, ⟨49, _⟩ => ⟨S900000, .i32⟩
  | .hbm, ⟨50, _⟩ => ⟨S900000, .i32⟩
  | .hbm, ⟨51, _⟩ => ⟨S900000, .i32⟩
  | .hbm, ⟨52, _⟩ => ⟨S900000x1, .i32⟩
  | .hbm, ⟨53, _⟩ => ⟨S900000, .f32⟩
  | .hbm, ⟨54, _⟩ => ⟨S900000, .f32⟩
  | .hbm, ⟨55, _⟩ => ⟨S_, .i32⟩
  | .hbm, ⟨56, _⟩ => ⟨S900000, .i32⟩
  | .hbm, ⟨57, _⟩ => ⟨S900000, .i1⟩
  | .hbm, ⟨58, _⟩ => ⟨S_, .i32⟩
  | .hbm, ⟨59, _⟩ => ⟨S900000, .i32⟩
  | .hbm, ⟨60, _⟩ => ⟨S900000, .i32⟩
  | .hbm, ⟨61, _⟩ => ⟨S900000, .i32⟩
  | .hbm, ⟨62, _⟩ => ⟨S900000x1, .i32⟩
  | .hbm, ⟨63, _⟩ => ⟨S900000x256, .f32⟩
  | .hbm, ⟨64, _⟩ => ⟨S900000x1, .f32⟩
  | .hbm, ⟨65, _⟩ => ⟨S900000x256, .f32⟩
  | .hbm, ⟨66, _⟩ => ⟨S900000x256, .f32⟩
  | .hbm, ⟨67, _⟩ => ⟨S_, .f32⟩
  | .hbm, ⟨68, _⟩ => ⟨S100000x256, .f32⟩
  | .hbm, ⟨69, _⟩ => ⟨S900000x1, .i32⟩
  | .hbm, ⟨70, _⟩ => ⟨S100000x256, .f32⟩
  | .hbm, ⟨71, _⟩ => ⟨S1x256, .f32⟩
  | .hbm, ⟨72, _⟩ => ⟨S100000x256, .f32⟩
  | .hbm, ⟨73, _⟩ => ⟨S100000x256, .f32⟩
  | .hbm, ⟨74, _⟩ => ⟨S1x400000, .i32⟩
  | .hbm, ⟨75, _⟩ => ⟨S400000, .i32⟩
  | .hbm, ⟨76, _⟩ => ⟨S_, .i32⟩
  | .hbm, ⟨77, _⟩ => ⟨S400000, .i32⟩
  | .hbm, ⟨78, _⟩ => ⟨S400000, .i1⟩
  | .hbm, ⟨79, _⟩ => ⟨S_, .i32⟩
  | .hbm, ⟨80, _⟩ => ⟨S400000, .i32⟩
  | .hbm, ⟨81, _⟩ => ⟨S400000, .i32⟩
  | .hbm, ⟨82, _⟩ => ⟨S400000, .i32⟩
  | .hbm, ⟨83, _⟩ => ⟨S400000x1, .i32⟩
  | .hbm, ⟨84, _⟩ => ⟨S400000x256, .f32⟩
  | .hbm, ⟨85, _⟩ => ⟨S1x400000, .i32⟩
  | .hbm, ⟨86, _⟩ => ⟨S400000, .i32⟩
  | .hbm, ⟨87, _⟩ => ⟨S_, .i32⟩
  | .hbm, ⟨88, _⟩ => ⟨S400000, .i32⟩
  | .hbm, ⟨89, _⟩ => ⟨S400000, .i1⟩
  | .hbm, ⟨90, _⟩ => ⟨S_, .i32⟩
  | .hbm, ⟨91, _⟩ => ⟨S400000, .i32⟩
  | .hbm, ⟨92, _⟩ => ⟨S400000, .i32⟩
  | .hbm, ⟨93, _⟩ => ⟨S400000, .i32⟩
  | .hbm, ⟨94, _⟩ => ⟨S400000x1, .i32⟩
  | .hbm, ⟨95, _⟩ => ⟨S400000x256, .f32⟩
  | .hbm, ⟨96, _⟩ => ⟨S1x128, .f32⟩
  | .hbm, ⟨97, _⟩ => ⟨S1x32, .f32⟩
  | .hbm, ⟨98, _⟩ => ⟨S1x1, .f32⟩
  | .hbm, ⟨99, _⟩ => ⟨S400000x1, .f32⟩
  | .hbm, ⟨100, _⟩ => ⟨S400000, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x256, .f32⟩
  | .local _ .vmem, ⟨4, _⟩ => ⟨S5000x256, .f32⟩
  | .local _ .vmem, ⟨5, _⟩ => ⟨S4000x256, .f32⟩
  | .local _ .vmem, ⟨6, _⟩ => ⟨S4000x256, .f32⟩
  | .local _ .vmem, ⟨7, _⟩ => ⟨S4000x256, .f32⟩
  | .local _ .vmem, ⟨8, _⟩ => ⟨S4000x256, .f32⟩
  | .local _ .vmem, ⟨9, _⟩ => ⟨S256x128, .f32⟩
  | .local _ .vmem, ⟨10, _⟩ => ⟨S1x128, .f32⟩
  | .local _ .vmem, ⟨11, _⟩ => ⟨S128x32, .f32⟩
  | .local _ .vmem, ⟨12, _⟩ => ⟨S1x32, .f32⟩
  | .local _ .vmem, ⟨13, _⟩ => ⟨S32x1, .f32⟩
  | .local _ .vmem, ⟨14, _⟩ => ⟨S1x1, .f32⟩
  | .local _ .vmem, ⟨15, _⟩ => ⟨S4000x1, .f32⟩
  | .local _ .vmem, ⟨16, _⟩ => ⟨S4000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_12 : Ref sig .tc := ⟨.hbm, 87, rfl⟩
abbrev main_v60 : Ref sig .tc := ⟨.hbm, 88, rfl⟩
abbrev main_v61 : Ref sig .tc := ⟨.hbm, 89, rfl⟩
abbrev main_c_13 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem8_1 : DmaSem sig := 16

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S4000x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x256_0_1 : S900000x1.BroadcastsInDim S900000x256 (![0, 1] : Fin 2 → Fin S900000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  slices_S2x400000_S1x400000_1_0 : S2x400000.Slices ![1, 0] S1x400000
  shapeCasts_S1x400000_S400000 : S1x400000.ShapeCasts S400000
  bcast_S_S400000 : S_.BroadcastsInDim S400000 (![] : Fin 0 → Fin S400000.rank)
  bcast_S400000_S400000x1_0 : S400000.BroadcastsInDim S400000x1 (![0] : Fin 1 → Fin S400000x1.rank)
  slices_S2x400000_S1x400000_0_0 : S2x400000.Slices ![0, 0] S1x400000
  shapeCasts_S128_S1x128 : S128.ShapeCasts S1x128
  shapeCasts_S32_S1x32 : S32.ShapeCasts S1x32
  shapeCasts_S1_S1x1 : S1.ShapeCasts S1x1
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  shapeCasts_S400000x1_S400000 : S400000x1.ShapeCasts S400000
  dot_S5000x256_S256x256_S5000x256_1_0_0_1_n_n_wf : DotDims.WF S5000x256 S256x256 S5000x256 [1] [0] [0] [1] [] []
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  gather_S100000x256_S900000x1_S900000x256_1_0_n_n_0_1_1256_wf : GatherDims.WF S100000x256 S900000x1 S900000x256 [1] [0] [] [0] [] 1 ![1, 256]
  scatter_S100000x256_S900000x1_S900000x256_1_0_0_1_wf : ScatterDims.WF S100000x256 S900000x1 S900000x256 [1] [0] [0] 1
  gather_S100000x256_S400000x1_S400000x256_1_0_n_n_0_1_1256_wf : GatherDims.WF S100000x256 S400000x1 S400000x256 [1] [0] [] [0] [] 1 ![1, 256]
  dot_S4000x256_S256x128_S4000x128_1_0_0_1_n_n_wf : DotDims.WF S4000x256 S256x128 S4000x128 [1] [0] [0] [1] [] []
  dot_S4000x128_S128x32_S4000x32_1_0_0_1_n_n_wf : DotDims.WF S4000x128 S128x32 S4000x32 [1] [0] [0] [1] [] []
  dot_S4000x32_S32x1_S4000x1_1_0_0_1_n_n_wf : DotDims.WF S4000x32 S32x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S100000x256.size a
  hwx0_2 : ∀ i : grid0.Coords, EltTy.bits .f32 = 32 ∨ (Rect.block (s := S100000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S400000x256.size a
  hwx1_0 : ∀ i : grid1.Coords, EltTy.bits .f32 = 32 ∨ (Rect.block (s := S400000x256) S4000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x256.size a ≤ S400000x256.size a
  hwx1_1 : ∀ i : grid1.Coords, EltTy.bits .f32 = 32 ∨ (Rect.block (s := S400000x256) S4000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x32.size a ≤ S128x32.size a
  hwx1_4 : ∀ i : grid1.Coords, EltTy.bits .f32 = 32 ∨ (Rect.block (s := S128x32) S128x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32x1.size a ≤ S32x1.size a
  hwx1_6 : ∀ i : grid1.Coords, EltTy.bits .f32 = 32 ∨ (Rect.block (s := S32x1) S32x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1.size a ≤ S1x1.size a
  hwx1_7 : ∀ i : grid1.Coords, EltTy.bits .f32 = 32 ∨ (Rect.block (s := S1x1) S1x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4000x1.size a ≤ S400000x1.size a
  hwx1_8 : ∀ i : grid1.Coords, EltTy.bits .f32 = 32 ∨ (Rect.block (s := S400000x1) S4000x1.size (cc1_transform_8 i) (hinb1_8 i)).WholeWords (EltTy.packing .f32)

variable [Facts₀]

def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x256_S900000x1_S900000x256_1_0_n_n_0_1_1256 : GatherDims S100000x256 S900000x1 S900000x256 where
  offsetDims := [1]
  collapsedSliceDims := [0]
  operandBatchingDims := []
  startIndicesBatchingDims := []
  startIndexMap := [0]
  indexVectorDim := 1
  sliceSizes := ![1, 256]
  wf := gather_S100000x256_S900000x1_S900000x256_1_0_n_n_0_1_1256_wf
def scatter_S100000x256_S900000x1_S900000x256_1_0_0_1 : ScatterDims S100000x256 S900000x1 S900000x256 where
  updateWindowDims := [1]
  insertedWindowDims := [0]
  scatterDimsToOperandDims := [0]
  indexVectorDim := 1
  wf := scatter_S100000x256_S900000x1_S900000x256_1_0_0_1_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def dot_S4000x128_S128x32_S4000x32_1_0_0_1_n_n : DotDims S4000x128 S128x32 S4000x32 where
  lhsContracting := [1]
  rhsContracting := [0]
  lhsNonContracting := [0]
  rhsNonContracting := [1]
  lhsBatch := []
  rhsBatch := []
  wf := dot_S4000x128_S128x32_S4000x32_1_0_0_1_n_n_wf
def dot_S4000x32_S32x1_S4000x1_1_0_0_1_n_n : DotDims S4000x32 S32x1 S4000x1 where
  lhsContracting := [1]
  rhsContracting := [0]
  lhsNonContracting := [0]
  rhsNonContracting := [1]
  lhsBatch := []
  rhsBatch := []
  wf := dot_S4000x32_S32x1_S4000x1_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v57) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v66) S4000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v67) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v68) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S32x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v69) S1x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v70) S4000x1.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x800000 : Shape := ⟨2, ![2, 800000]⟩
abbrev S2x400000 : Shape := ⟨2, ![2, 400000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S900000x256 : Shape := ⟨2, ![900000, 256]⟩
abbrev S1x256 : Shape := ⟨2, ![1, 256]⟩
abbrev S1x400000 : Shape := ⟨2, ![1, 400000]⟩
abbrev S400000 : Shape := ⟨1, ![400000]⟩
abbrev S400000x1 : Shape := ⟨2, ![400000, 1]⟩
abbrev S400000x256 : Shape := ⟨2, ![400000, 256]⟩
abbrev S400000x128 : Shape := ⟨2, ![400000, 128]⟩
abbrev S1x128 : Shape := ⟨2, ![1, 128]⟩
abbrev S400000x32 : Shape := ⟨2, ![400000, 32]⟩
abbrev S1x32 : Shape := ⟨2, ![1, 32]⟩
abbrev S1x1 : Shape := ⟨2, ![1, 1]⟩

abbrev nBuf : Space → Nat
  | .hbm => 116
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x800000, .i32⟩
  | .hbm, ⟨2, _⟩ => ⟨S2x400000, .i32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x32, .f32⟩
  | .hbm, ⟨8, _⟩ => ⟨S32, .f32⟩
  | .hbm, ⟨9, _⟩ => ⟨S32x1, .f32⟩
  | .hbm, ⟨10, _⟩ => ⟨S1, .f32⟩
  | .hbm, ⟨11, _⟩ => ⟨S100000x256, .f32⟩
  | .hbm, ⟨12, _⟩ => ⟨S100000, .i32⟩
  | .hbm, ⟨13, _⟩ => ⟨S1x800000, .i32⟩
  | .hbm, ⟨14, _⟩ => ⟨S800000, .i32⟩
  | .hbm, ⟨15, _⟩ => ⟨S900000, .i32⟩
  | .hbm, ⟨16, _⟩ => ⟨S1x800000, .i32⟩
  | .hbm, ⟨17, _⟩ => ⟨S800000, .i32⟩
  | .hbm, ⟨18, _⟩ => ⟨S900000, .i32⟩
  | .hbm, ⟨19, _⟩ => ⟨S_, .f32⟩
  | .hbm, ⟨20, _⟩ => ⟨S900000, .f32⟩
  | .hbm, ⟨21, _⟩ => ⟨S_, .f32⟩
  | .hbm, ⟨22, _⟩ => ⟨S100000, .f32⟩
  | .hbm, ⟨23, _⟩ => ⟨S900000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S900000, .i32⟩
  | .hbm, ⟨38, _⟩ => ⟨S900000, .i1⟩
  | .hbm, ⟨39, _⟩ => ⟨S_, .i32⟩
  | .hbm, ⟨40, _⟩ => ⟨S900000, .i32⟩
  | .hbm, ⟨41, _⟩ => ⟨S900000, .i32⟩
  | .hbm, ⟨42, _⟩ => ⟨S900000, .i32⟩
  | .hbm, ⟨43, _⟩ => ⟨S900000x1, .i32⟩
  | .hbm, ⟨44, _⟩ => ⟨S900000, .f32⟩
  | .hbm, ⟨45, _⟩ => ⟨S_, .i32⟩
  | .hbm, ⟨46, _⟩ => ⟨S900000, .i32⟩
  | .hbm, ⟨47, _⟩ => ⟨S900000, .i1⟩
  | .hbm, ⟨48, _⟩ => ⟨S_, .i32⟩
  | .hbm, ⟨49, _⟩ => ⟨S900000, .i32⟩
  | .hbm, ⟨50, _⟩ => ⟨S900000, .i32⟩
  | .hbm, ⟨51, _⟩ => ⟨S900000, .i32⟩
  | .hbm, ⟨52, _⟩ => ⟨S900000x1, .i32⟩
  | .hbm, ⟨53, _⟩ => ⟨S900000, .f32⟩
  | .hbm, ⟨54, _⟩ => ⟨S900000, .f32⟩
  | .hbm, ⟨55, _⟩ => ⟨S_, .i32⟩
  | .hbm, ⟨56, _⟩ => ⟨S900000, .i32⟩
  | .hbm, ⟨57, _⟩ => ⟨S900000, .i1⟩
  | .hbm, ⟨58, _⟩ => ⟨S_, .i32⟩
  | .hbm, ⟨59, _⟩ => ⟨S900000, .i32⟩
  | .hbm, ⟨60, _⟩ => ⟨S900000, .i32⟩
  | .hbm, ⟨61, _⟩ => ⟨S900000, .i32⟩
  | .hbm, ⟨62, _⟩ => ⟨S900000x1, .i32⟩
  | .hbm, ⟨63, _⟩ => ⟨S900000x256, .f32⟩
  | .hbm, ⟨64, _⟩ => ⟨S900000x1, .f32⟩
  | .hbm, ⟨65, _⟩ => ⟨S900000x256, .f32⟩
  | .hbm, ⟨66, _⟩ => ⟨S900000x256, .f32⟩
  | .hbm, ⟨67, _⟩ => ⟨S_, .f32⟩
  | .hbm, ⟨68, _⟩ => ⟨S100000x256, .f32⟩
  | .hbm, ⟨69, _⟩ => ⟨S900000x1, .i32⟩
  | .hbm, ⟨70, _⟩ => ⟨S100000x256, .f32⟩
  | .hbm, ⟨71, _⟩ => ⟨S1x256, .f32⟩
  | .hbm, ⟨72, _⟩ => ⟨S100000x256, .f32⟩
  | .hbm, ⟨73, _⟩ => ⟨S100000x256, .f32⟩
  | .hbm, ⟨74, _⟩ => ⟨S1x400000, .i32⟩
  | .hbm, ⟨75, _⟩ => ⟨S400000, .i32⟩
  | .hbm, ⟨76, _⟩ => ⟨S_, .i32⟩
  | .hbm, ⟨77, _⟩ => ⟨S400000, .i32⟩
  | .hbm, ⟨78, _⟩ => ⟨S400000, .i1⟩
  | .hbm, ⟨79, _⟩ => ⟨S_, .i32⟩
  | .hbm, ⟨80, _⟩ => ⟨S400000, .i32⟩
  | .hbm, ⟨81, _⟩ => ⟨S400000, .i32⟩
  | .hbm, ⟨82, _⟩ => ⟨S400000, .i32⟩
  | .hbm, ⟨83, _⟩ => ⟨S400000x1, .i32⟩
  | .hbm, ⟨84, _⟩ => ⟨S400000x256, .f32⟩
  | .hbm, ⟨85, _⟩ => ⟨S1x400000, .i32⟩
  | .hbm, ⟨86, _⟩ => ⟨S400000, .i32⟩
  | .hbm, ⟨87, _⟩ => ⟨S_, .i32⟩
  | .hbm, ⟨88, _⟩ => ⟨S400000, .i32⟩
  | .hbm, ⟨89, _⟩ => ⟨S400000, .i1⟩
  | .hbm, ⟨90, _⟩ => ⟨S_, .i32⟩
  | .hbm, ⟨91, _⟩ => ⟨S400000, .i32⟩
  | .hbm, ⟨92, _⟩ => ⟨S400000, .i32⟩
  | .hbm, ⟨93, _⟩ => ⟨S400000, .i32⟩
  | .hbm, ⟨94, _⟩ => ⟨S400000x1, .i32⟩
  | .hbm, ⟨95, _⟩ => ⟨S400000x256, .f32⟩
  | .hbm, ⟨96, _⟩ => ⟨S400000x256, .f32⟩
  | .hbm, ⟨97, _⟩ => ⟨S400000x128, .f32⟩
  | .hbm, ⟨98, _⟩ => ⟨S1x128, .f32⟩
  | .hbm, ⟨99, _⟩ => ⟨S400000x128, .f32⟩
  | .hbm, ⟨100, _⟩ => ⟨S400000x128, .f32⟩
  | .hbm, ⟨101, _⟩ => ⟨S_, .f32⟩
  | .hbm, ⟨102, _⟩ => ⟨S400000x128, .f32⟩
  | .hbm, ⟨103, _⟩ => ⟨S400000x128, .f32⟩
  | .hbm, ⟨104, _⟩ => ⟨S400000x32, .f32⟩
  | .hbm, ⟨105, _⟩ => ⟨S1x32, .f32⟩
  | .hbm, ⟨106, _⟩ => ⟨S400000x32, .f32⟩
  | .hbm, ⟨107, _⟩ => ⟨S400000x32, .f32⟩
  | .hbm, ⟨108, _⟩ => ⟨S_, .f32⟩
  | .hbm, ⟨109, _⟩ => ⟨S400000x32, .f32⟩
  | .hbm, ⟨110, _⟩ => ⟨S400000x32, .f32⟩
  | .hbm, ⟨111, _⟩ => ⟨S400000x1, .f32⟩
  | .hbm, ⟨112, _⟩ => ⟨S1x1, .f32⟩
  | .hbm, ⟨113, _⟩ => ⟨S400000x1, .f32⟩
  | .hbm, ⟨114, _⟩ => ⟨S400000x1, .f32⟩
  | .hbm, ⟨115, _⟩ => ⟨S400000, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_12 : Ref sig .tc := ⟨.hbm, 87, rfl⟩
abbrev main_v60 : Ref sig .tc := ⟨.hbm, 88, rfl⟩
abbrev main_v61 : Ref sig .tc := ⟨.hbm, 89, rfl⟩
abbrev main_c_13 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_call1_cst : Ref sig .tc := ⟨.hbm, 101, rfl⟩
abbrev main_call1_v0 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_call2_cst : Ref sig .tc := ⟨.hbm, 108, rfl⟩
abbrev main_call2_v0 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x256_0_1 : S900000x1.BroadcastsInDim S900000x256 (![0, 1] : Fin 2 → Fin S900000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  slices_S2x400000_S1x400000_1_0 : S2x400000.Slices ![1, 0] S1x400000
  shapeCasts_S1x400000_S400000 : S1x400000.ShapeCasts S400000
  bcast_S_S400000 : S_.BroadcastsInDim S400000 (![] : Fin 0 → Fin S400000.rank)
  bcast_S400000_S400000x1_0 : S400000.BroadcastsInDim S400000x1 (![0] : Fin 1 → Fin S400000x1.rank)
  slices_S2x400000_S1x400000_0_0 : S2x400000.Slices ![0, 0] S1x400000
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  bcast_S32_S1x32_1 : S32.BroadcastsInDim S1x32 (![1] : Fin 1 → Fin S1x32.rank)
  bcast_S1x32_S400000x32_0_1 : S1x32.BroadcastsInDim S400000x32 (![0, 1] : Fin 2 → Fin S400000x32.rank)
  bcast_S_S400000x32 : S_.BroadcastsInDim S400000x32 (![] : Fin 0 → Fin S400000x32.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  shapeCasts_S400000x1_S400000 : S400000x1.ShapeCasts S400000
  dot_S100000x256_S256x256_S100000x256_1_0_0_1_n_n_wf : DotDims.WF S100000x256 S256x256 S100000x256 [1] [0] [0] [1] [] []
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  gather_S100000x256_S900000x1_S900000x256_1_0_n_n_0_1_1256_wf : GatherDims.WF S100000x256 S900000x1 S900000x256 [1] [0] [] [0] [] 1 ![1, 256]
  scatter_S100000x256_S900000x1_S900000x256_1_0_0_1_wf : ScatterDims.WF S100000x256 S900000x1 S900000x256 [1] [0] [0] 1
  gather_S100000x256_S400000x1_S400000x256_1_0_n_n_0_1_1256_wf : GatherDims.WF S100000x256 S400000x1 S400000x256 [1] [0] [] [0] [] 1 ![1, 256]
  dot_S400000x256_S256x128_S400000x128_1_0_0_1_n_n_wf : DotDims.WF S400000x256 S256x128 S400000x128 [1] [0] [0] [1] [] []
  dot_S400000x128_S128x32_S400000x32_1_0_0_1_n_n_wf : DotDims.WF S400000x128 S128x32 S400000x32 [1] [0] [0] [1] [] []
  dot_S400000x32_S32x1_S400000x1_1_0_0_1_n_n_wf : DotDims.WF S400000x32 S32x1 S400000x1 [1] [0] [0] [1] [] []

variable [Facts₀]

def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x256_S900000x1_S900000x256_1_0_n_n_0_1_1256 : GatherDims S100000x256 S900000x1 S900000x256 where
  offsetDims := [1]
  collapsedSliceDims := [0]
  operandBatchingDims := []
  startIndicesBatchingDims := []
  startIndexMap := [0]
  indexVectorDim := 1
  sliceSizes := ![1, 256]
  wf := gather_S100000x256_S900000x1_S900000x256_1_0_n_n_0_1_1256_wf
def scatter_S100000x256_S900000x1_S900000x256_1_0_0_1 : ScatterDims S100000x256 S900000x1 S900000x256 where
  updateWindowDims := [1]
  insertedWindowDims := [0]
  scatterDimsToOperandDims := [0]
  indexVectorDim := 1
  wf := scatter_S100000x256_S900000x1_S900000x256_1_0_0_1_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def dot_S400000x256_S256x128_S400000x128_1_0_0_1_n_n : DotDims S400000x256 S256x128 S400000x128 where
  lhsContracting := [1]
  rhsContracting := [0]
  lhsNonContracting := [0]
  rhsNonContracting := [1]
  lhsBatch := []
  rhsBatch := []
  wf := dot_S400000x256_S256x128_S400000x128_1_0_0_1_n_n_wf
def dot_S400000x128_S128x32_S400000x32_1_0_0_1_n_n : DotDims S400000x128 S128x32 S400000x32 where
  lhsContracting := [1]
  rhsContracting := [0]
  lhsNonContracting := [0]
  rhsNonContracting := [1]
  lhsBatch := []
  rhsBatch := []
  wf := dot_S400000x128_S128x32_S400000x32_1_0_0_1_n_n_wf
def dot_S400000x32_S32x1_S400000x1_1_0_0_1_n_n : DotDims S400000x32 S32x1 S400000x1 where
  lhsContracting := [1]
  rhsContracting := [0]
  lhsNonContracting := [0]
  rhsNonContracting := [1]
  lhsBatch := []
  rhsBatch := []
  wf := dot_S400000x32_S32x1_S400000x1_1_0_0_1_n_n_wf

class Facts : Prop extends Facts₀ where

variable [Facts]
-- ==== Proof.LibAffineRows.lean ====
/-
  A dense layer read row by row, at the ideal values.

  A kernel that tiles the rows of a matrix `X` computes, on each tile `xb`, the product `xb · w` by a matrix unit
  (operands narrowed to bf16, accumulated into zeros) and adds a bias row kept as a `[1, M]` block; the plain program
  computes `X · w` by one `dot_general` and adds the bias vector `[M]` broadcast over the rows. Over the extended reals
  narrowing is the identity and both products are the textbook sum over the contracted index, so row `r` of the tile's
  result is row `n r` of the whole result as soon as row `r` of the tile is row `n r` of `X`
  (`affine_rows`), and the same after a `tanh` (`tanh_affine_rows`). Nothing here depends on the sizes.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

/-- The dimension numbers `d` describe the plain product of an `[R, K]` by a `[K, M]` matrix: one contracted index of
    extent `K`, which is the left operand's column and the right operand's row; the result's row is the left operand's
    row and its column the right operand's column. -/
structure PlainDot {R K M : ℕ} (d : DotDims ⟨2, ![R, K]⟩ ⟨2, ![K, M]⟩ ⟨2, ![R, M]⟩) : Prop where
  rank : d.contr.rank = 1
  size : d.contr.size ⟨0, by omega⟩ = K
  l0 : ∀ (i : (⟨2, ![R, M]⟩ : Shape).Idx) (q : d.contr.Idx), (d.lhsIdx i q 0).val = (i 0).val
  l1 : ∀ (i : (⟨2, ![R, M]⟩ : Shape).Idx) (q : d.contr.Idx), (d.lhsIdx i q 1).val = (q ⟨0, by omega⟩).val
  r0 : ∀ (i : (⟨2, ![R, M]⟩ : Shape).Idx) (q : d.contr.Idx), (d.rhsIdx i q 0).val = (q ⟨0, by omega⟩).val
  r1 : ∀ (i : (⟨2, ![R, M]⟩ : Shape).Idx) (q : d.contr.Idx), (d.rhsIdx i q 1).val = (i 1).val

variable {R K M : ℕ}

/-- The sum over the record's contraction index is the sum over `k < K` of `x (r, k) · w (k, c)`. -/
theorem PlainDot.sum_eq {d : DotDims ⟨2, ![R, K]⟩ ⟨2, ![K, M]⟩ ⟨2, ![R, M]⟩} (h : PlainDot d)
    (x : (⟨2, ![R, K]⟩ : Shape).Idx → EReal) (w : (⟨2, ![K, M]⟩ : Shape).Idx → EReal) (r : Fin R) (c : Fin M) :
    ∑ k : d.contr.Idx, x (d.lhsIdx (ix2 r c) k) * w (d.rhsIdx (ix2 r c) k) = ∑ k : Fin K, x (ix2 r k) * w (ix2 k c) := by
  rw [← Equiv.sum_comp (contrEquiv1 d K h.rank h.size).symm]
  refine Finset.sum_congr rfl fun k _ => ?_
  have hk := contrEquiv1_symm_val d K h.rank h.size k
  have el : d.lhsIdx (ix2 r c) ((contrEquiv1 d K h.rank h.size).symm k) = ix2 r k := funext fun a => Fin.ext (by
    match a with
    | ⟨0, _⟩ => exact h.l0 _ _
    | ⟨1, _⟩ => exact (h.l1 _ _).trans hk)
  have er : d.rhsIdx (ix2 r c) ((contrEquiv1 d K h.rank h.size).symm k) = ix2 k c := funext fun a => Fin.ext (by
    match a with
    | ⟨0, _⟩ => exact (h.r0 _ _).trans hk
    | ⟨1, _⟩ => exact h.r1 _ _)
  rw [el, er]

/-- A matrix unit's product of two narrowed operands into zeros, at `(r, c)`: the textbook sum. -/
theorem matmul_zero_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (ht : FTy.bits .bf16 < FTy.bits .f32)
    (r : Fin R) (c : Fin M) :
    matmul d none (truncf .bf16 x ht) (truncf .bf16 w ht) (constant ⟨2, ![R, M]⟩ .f32 0x00000000#32) (ix2 r c)
      = ∑ k : Fin K, x (ix2 r k) * w (ix2 k c) := by
  simp only [matmul]
  rw [Ideal.matmul_constant_zero_apply]
  exact h.sum_eq (fun i => x i) (fun i => w i) r c

/-- The host's `dot_general` at `(r, c)`: the same sum. -/
theorem dotGeneral_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (r : Fin R) (c : Fin M) :
    Host.dotGeneral d none x w (ix2 r c) = ∑ k : Fin K, x (ix2 r k) * w (ix2 k c) := by
  simp only [Host.dotGeneral]
  rw [Ideal.dotGeneral_apply]
  exact h.sum_eq (fun i => x i) (fun i => w i) r c

/-- A bias vector `[M]` made a row `[1, M]` and then broadcast over `N` rows reads, at `(n, q)`, the vector at `q`. -/
theorem bias_rows_apply {N : ℕ} (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (n : Fin N) (q : Fin M) :
    broadcastInDim ⟨2, ![N, M]⟩ ![0, 1] h2 (broadcastInDim ⟨2, ![1, M]⟩ ![1] h1 b) (ix2 n q) = b (ix1 q) := by
  rw [broadcastInDim_apply _ h2 _ (ix2 n q) (ix2 (0 : Fin 1) q) (fun a => by
    match a with
    | ⟨0, _⟩ => show (0 : ℕ) = if (1 : ℕ) = 1 then 0 else n.val; rw [if_pos rfl]
    | ⟨1, _⟩ => show q.val = if M = 1 then 0 else q.val; split <;> [(have := q.isLt; omega); rfl])]
  exact broadcastInDim_apply _ h1 b (ix2 (0 : Fin 1) q) (ix1 q) (fun a => by
    match a with
    | ⟨0, _⟩ => show q.val = if M = 1 then 0 else q.val; split <;> [(have := q.isLt; omega); rfl])

/-- ROW BY ROW: where row `r` of the tile `xb` is row `n r` of `X` and the bias block's row is the bias vector, the
    tile's `xb · w + bias` at `(r, q)` is the whole `X · w + bias` at `(n r, q)`. -/
theorem affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (matmul dB none (truncf .bf16 xb ht) (truncf .bf16 w ht) (constant ⟨2, ![R, M]⟩ .f32 0x00000000#32))
        (broadcastTo ⟨2, ![R, M]⟩ (shapeCast ⟨2, ![1, M]⟩ b2 hsc) hbc) (ix2 r q)
      = addf (Host.dotGeneral dW none X w) (broadcastInDim ⟨2, ![N, M]⟩ ![0, 1] h2 (broadcastInDim ⟨2, ![1, M]⟩ ![1] h1 b)) (ix2 (n r) q) := by
  rw [addf_apply, addf_apply, matmul_zero_apply hB, dotGeneral_apply hW, bias_rows_apply, broadcastTo_1b_ab_apply,
    shapeCast_self, hb]
  exact congrArg (· + b (ix1 q)) (Finset.sum_congr rfl fun k _ => by rw [hx])

/-- The same after the hyperbolic tangent, the kernel's and the host's being one function of an extended real. -/
theorem tanh_affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    tanh (addf (matmul dB none (truncf .bf16 xb ht) (truncf .bf16 w ht) (constant ⟨2, ![R, M]⟩ .f32 0x00000000#32))
        (broadcastTo ⟨2, ![R, M]⟩ (shapeCast ⟨2, ![1, M]⟩ b2 hsc) hbc)) (ix2 r q)
      = Host.tanh (addf (Host.dotGeneral dW none X w)
          (broadcastInDim ⟨2, ![N, M]⟩ ![0, 1] h2 (broadcastInDim ⟨2, ![1, M]⟩ ![1] h1 b))) (ix2 (n r) q) :=
  congrArg Ideal.tanh (affine_rows hB hW xb X w b2 b n hx hb ht hsc hbc h1 h2 r q)

end Cert.Lib

end
-- ==== Proof.Layers.lean ====
/-
  Three dense layers read row by row, at the ideal values.

  The kernel works on a tile of rows. On a tile it forms the difference of two row blocks, multiplies by a weight
  matrix on the matrix unit (operands narrowed to bf16, accumulated into zeros), adds a bias row kept as a `[1, M]`
  block, clamps at zero, and repeats this twice more, the last layer without the clamp. The plain program does the
  same on the whole matrices with one `dot_general` per layer and the bias vector broadcast over all rows.

  Over the extended reals narrowing is the identity and both products are the textbook sum over the contracted index,
  so every layer acts on each row by itself: if row `r` of the tile's input is row `n r` of the whole input, then
  row `r` of the tile's output is row `n r` of the whole output. Clamping at zero is `max · 0` entry by entry on both
  sides, so it keeps that relation. Chaining the three layers gives `mlp_rows`. The first product of the program (a
  tile of `x` against the whole weight matrix, no bias) is the same fact without the bias: `proj_rows`.
  No law beyond "the same sum of the same terms" is used, so nothing here needs the entries to be finite.
-/
import proofs.«144195_j8048768712805_1_alg».proof.Proof.LibAffineRows
import Idealize.ShloMosaic.Lib.IdealHost

noncomputable section

namespace Cert.Mlp

open Idealize.ShloMosaic Idealize.ShloMosaic.ValueIdx Cert.Lib

variable {R N K M : ℕ}

/-- A tile's product into zeros at `(r, q)` is the whole product at `(n r, q)` when row `r` of the tile is row
    `n r` of the whole left operand: both are the sum over `k` of `x (·, k) · w (k, q)`. -/
theorem proj_rows
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (n : Fin R → Fin N) (hx : ∀ r k, xb (ix2 r k) = X (ix2 (n r) k))
    (ht : FTy.bits .bf16 < FTy.bits .f32) (r : Fin R) (q : Fin M) :
    matmul dB none (truncf .bf16 xb ht) (truncf .bf16 w ht) (constant ⟨2, ![R, M]⟩ .f32 0x00000000#32) (ix2 r q)
      = Host.dotGeneral dW none X w (ix2 (n r) q) := by
  rw [matmul_zero_apply hB, dotGeneral_apply hW]
  exact Finset.sum_congr rfl fun k _ => by rw [hx]

/-- A dense layer followed by the clamp at zero, row by row: the tile's `max (xb · w + bias) 0` at `(r, q)` is the
    whole `max (X · w + bias) 0` at `(n r, q)`. The kernel's zero is a splat scalar, the plain program's a broadcast
    rank-0 constant; both read the extended real zero word at every index. -/
theorem relu_affine_rows
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2))
    (h0 : (⟨0, ![]⟩ : Shape).BroadcastsInDim ⟨2, ![N, M]⟩ ![]) (r : Fin R) (q : Fin M) :
    maximumf (addf (matmul dB none (truncf .bf16 xb ht) (truncf .bf16 w ht) (constant ⟨2, ![R, M]⟩ .f32 0x00000000#32))
        (broadcastTo ⟨2, ![R, M]⟩ (shapeCast ⟨2, ![1, M]⟩ b2 hsc) hbc))
      (broadcast ⟨2, ![R, M]⟩ (Scalar.ofBits (F := Ideal) .f32 0x00000000#32)) (ix2 r q)
      = maximumf (addf (Host.dotGeneral dW none X w)
          (broadcastInDim ⟨2, ![N, M]⟩ ![0, 1] h2 (broadcastInDim ⟨2, ![1, M]⟩ ![1] h1 b)))
        (broadcastInDim ⟨2, ![N, M]⟩ ![] h0 (constant (F := Ideal) ⟨0, ![]⟩ .f32 0x00000000#32)) (ix2 (n r) q) := by
  rw [maximumf_apply, maximumf_apply, affine_rows hB hW xb X w b2 b n hx hb ht hsc hbc h1 h2 r q, broadcast_apply,
    broadcastInDim_scalar_apply, constant_apply]
  rfl

variable {A B C : ℕ}

/-- THE THREE LAYERS, row by row. `xd`, `xs` are the tile's two row blocks and `HD`, `HS` the whole matrices they
    are rows of; `c1 c2 c3` are the bias rows `[1, ·]` the kernel is given and `b1 b2 b3` the bias vectors of the
    plain program, equal entry by entry. Then the tile's result at `(r, q)` is the plain program's at `(n r, q)`. -/
theorem mlp_rows
    {d1B : DotDims ⟨2, ![R, K]⟩ ⟨2, ![K, A]⟩ ⟨2, ![R, A]⟩} (h1B : PlainDot d1B)
    {d1W : DotDims ⟨2, ![N, K]⟩ ⟨2, ![K, A]⟩ ⟨2, ![N, A]⟩} (h1W : PlainDot d1W)
    {d2B : DotDims ⟨2, ![R, A]⟩ ⟨2, ![A, B]⟩ ⟨2, ![R, B]⟩} (h2B : PlainDot d2B)
    {d2W : DotDims ⟨2, ![N, A]⟩ ⟨2, ![A, B]⟩ ⟨2, ![N, B]⟩} (h2W : PlainDot d2W)
    {d3B : DotDims ⟨2, ![R, B]⟩ ⟨2, ![B, C]⟩ ⟨2, ![R, C]⟩} (h3B : PlainDot d3B)
    {d3W : DotDims ⟨2, ![N, B]⟩ ⟨2, ![B, C]⟩ ⟨2, ![N, C]⟩} (h3W : PlainDot d3W)
    (xd xs : FVec Ideal ⟨2, ![R, K]⟩ .f32) (HD HS : FVec Ideal ⟨2, ![N, K]⟩ .f32)
    (w1 : FVec Ideal ⟨2, ![K, A]⟩ .f32) (c1 : FVec Ideal ⟨2, ![1, A]⟩ .f32) (b1 : FVec Ideal ⟨1, ![A]⟩ .f32)
    (w2 : FVec Ideal ⟨2, ![A, B]⟩ .f32) (c2 : FVec Ideal ⟨2, ![1, B]⟩ .f32) (b2 : FVec Ideal ⟨1, ![B]⟩ .f32)
    (w3 : FVec Ideal ⟨2, ![B, C]⟩ .f32) (c3 : FVec Ideal ⟨2, ![1, C]⟩ .f32) (b3 : FVec Ideal ⟨1, ![C]⟩ .f32)
    (n : Fin R → Fin N)
    (hxd : ∀ r k, xd (ix2 r k) = HD (ix2 (n r) k)) (hxs : ∀ r k, xs (ix2 r k) = HS (ix2 (n r) k))
    (hc1 : ∀ q : Fin A, c1 (ix2 (0 : Fin 1) q) = b1 (ix1 q)) (hc2 : ∀ q : Fin B, c2 (ix2 (0 : Fin 1) q) = b2 (ix1 q))
    (hc3 : ∀ q : Fin C, c3 (ix2 (0 : Fin 1) q) = b3 (ix1 q))
    (ht : FTy.bits .bf16 < FTy.bits .f32) (hscX : (⟨2, ![R, K]⟩ : Shape).ShapeCasts ⟨2, ![R, K]⟩)
    (hsc1 : (⟨2, ![1, A]⟩ : Shape).ShapeCasts ⟨2, ![1, A]⟩) (hbc1 : (⟨2, ![1, A]⟩ : Shape).Broadcasts ⟨2, ![R, A]⟩)
    (h11 : (⟨1, ![A]⟩ : Shape).BroadcastsInDim ⟨2, ![1, A]⟩ (![1] : Fin 1 → Fin 2))
    (h12 : (⟨2, ![1, A]⟩ : Shape).BroadcastsInDim ⟨2, ![N, A]⟩ (![0, 1] : Fin 2 → Fin 2))
    (h10 : (⟨0, ![]⟩ : Shape).BroadcastsInDim ⟨2, ![N, A]⟩ ![])
    (hsc2 : (⟨2, ![1, B]⟩ : Shape).ShapeCasts ⟨2, ![1, B]⟩) (hbc2 : (⟨2, ![1, B]⟩ : Shape).Broadcasts ⟨2, ![R, B]⟩)
    (h21 : (⟨1, ![B]⟩ : Shape).BroadcastsInDim ⟨2, ![1, B]⟩ (![1] : Fin 1 → Fin 2))
    (h22 : (⟨2, ![1, B]⟩ : Shape).BroadcastsInDim ⟨2, ![N, B]⟩ (![0, 1] : Fin 2 → Fin 2))
    (h20 : (⟨0, ![]⟩ : Shape).BroadcastsInDim ⟨2, ![N, B]⟩ ![])
    (hsc3 : (⟨2, ![1, C]⟩ : Shape).ShapeCasts ⟨2, ![1, C]⟩) (hbc3 : (⟨2, ![1, C]⟩ : Shape).Broadcasts ⟨2, ![R, C]⟩)
    (h31 : (⟨1, ![C]⟩ : Shape).BroadcastsInDim ⟨2, ![1, C]⟩ (![1] : Fin 1 → Fin 2))
    (h32 : (⟨2, ![1, C]⟩ : Shape).BroadcastsInDim ⟨2, ![N, C]⟩ (![0, 1] : Fin 2 → Fin 2))
    (r : Fin R) (q : Fin C) :
    addf (matmul d3B none
        (truncf .bf16
          (maximumf (addf (matmul d2B none
              (truncf .bf16
                (maximumf (addf (matmul d1B none
                    (truncf .bf16 (subf (shapeCast ⟨2, ![R, K]⟩ xd hscX) (shapeCast ⟨2, ![R, K]⟩ xs hscX)) ht)
                    (truncf .bf16 w1 ht) (constant ⟨2, ![R, A]⟩ .f32 0x00000000#32))
                    (broadcastTo ⟨2, ![R, A]⟩ (shapeCast ⟨2, ![1, A]⟩ c1 hsc1) hbc1))
                  (broadcast ⟨2, ![R, A]⟩ (Scalar.ofBits (F := Ideal) .f32 0x00000000#32))) ht)
              (truncf .bf16 w2 ht) (constant ⟨2, ![R, B]⟩ .f32 0x00000000#32))
              (broadcastTo ⟨2, ![R, B]⟩ (shapeCast ⟨2, ![1, B]⟩ c2 hsc2) hbc2))
            (broadcast ⟨2, ![R, B]⟩ (Scalar.ofBits (F := Ideal) .f32 0x00000000#32))) ht)
        (truncf .bf16 w3 ht) (constant ⟨2, ![R, C]⟩ .f32 0x00000000#32))
        (broadcastTo ⟨2, ![R, C]⟩ (shapeCast ⟨2, ![1, C]⟩ c3 hsc3) hbc3) (ix2 r q)
      = addf (Host.dotGeneral d3W none
          (maximumf (addf (Host.dotGeneral d2W none
              (maximumf (addf (Host.dotGeneral d1W none (subf HD HS) w1)
                  (broadcastInDim ⟨2, ![N, A]⟩ ![0, 1] h12 (broadcastInDim ⟨2, ![1, A]⟩ ![1] h11 b1)))
                (broadcastInDim ⟨2, ![N, A]⟩ ![] h10 (constant (F := Ideal) ⟨0, ![]⟩ .f32 0x00000000#32))) w2)
              (broadcastInDim ⟨2, ![N, B]⟩ ![0, 1] h22 (broadcastInDim ⟨2, ![1, B]⟩ ![1] h21 b2)))
            (broadcastInDim ⟨2, ![N, B]⟩ ![] h20 (constant (F := Ideal) ⟨0, ![]⟩ .f32 0x00000000#32))) w3)
          (broadcastInDim ⟨2, ![N, C]⟩ ![0, 1] h32 (broadcastInDim ⟨2, ![1, C]⟩ ![1] h31 b3)) (ix2 (n r) q) := by
  refine affine_rows h3B h3W _ _ w3 c3 b3 n (fun r k => ?_) hc3 ht hsc3 hbc3 h31 h32 r q
  refine relu_affine_rows h2B h2W _ _ w2 c2 b2 n (fun r k => ?_) hc2 ht hsc2 hbc2 h21 h22 h20 r k
  refine relu_affine_rows h1B h1W _ _ w1 c1 b1 n (fun r k => ?_) hc1 ht hsc1 hbc1 h11 h12 h10 r k
  rw [subf_apply, subf_apply, shapeCast_self, shapeCast_self, hxd, hxs]

/-- The plain program's three layers on whole matrices: `(max (max ((HD − HS) · w1 + b1) 0 · w2 + b2) 0) · w3 + b3`,
    every bias a vector broadcast over the `N` rows, every zero a broadcast rank-0 constant. Stated for any float
    family: it is a composition of the programs' own operations. -/
def whole {F : FTy → Type} [FloatOps F]
    (d1W : DotDims ⟨2, ![N, K]⟩ ⟨2, ![K, A]⟩ ⟨2, ![N, A]⟩) (d2W : DotDims ⟨2, ![N, A]⟩ ⟨2, ![A, B]⟩ ⟨2, ![N, B]⟩)
    (d3W : DotDims ⟨2, ![N, B]⟩ ⟨2, ![B, C]⟩ ⟨2, ![N, C]⟩)
    (h11 : (⟨1, ![A]⟩ : Shape).BroadcastsInDim ⟨2, ![1, A]⟩ (![1] : Fin 1 → Fin 2))
    (h12 : (⟨2, ![1, A]⟩ : Shape).BroadcastsInDim ⟨2, ![N, A]⟩ (![0, 1] : Fin 2 → Fin 2))
    (h10 : (⟨0, ![]⟩ : Shape).BroadcastsInDim ⟨2, ![N, A]⟩ ![])
    (h21 : (⟨1, ![B]⟩ : Shape).BroadcastsInDim ⟨2, ![1, B]⟩ (![1] : Fin 1 → Fin 2))
    (h22 : (⟨2, ![1, B]⟩ : Shape).BroadcastsInDim ⟨2, ![N, B]⟩ (![0, 1] : Fin 2 → Fin 2))
    (h20 : (⟨0, ![]⟩ : Shape).BroadcastsInDim ⟨2, ![N, B]⟩ ![])
    (h31 : (⟨1, ![C]⟩ : Shape).BroadcastsInDim ⟨2, ![1, C]⟩ (![1] : Fin 1 → Fin 2))
    (h32 : (⟨2, ![1, C]⟩ : Shape).BroadcastsInDim ⟨2, ![N, C]⟩ (![0, 1] : Fin 2 → Fin 2))
    (HD HS : FVec F ⟨2, ![N, K]⟩ .f32)
    (w1 : FVec F ⟨2, ![K, A]⟩ .f32) (b1 : FVec F ⟨1, ![A]⟩ .f32)
    (w2 : FVec F ⟨2, ![A, B]⟩ .f32) (b2 : FVec F ⟨1, ![B]⟩ .f32)
    (w3 : FVec F ⟨2, ![B, C]⟩ .f32) (b3 : FVec F ⟨1, ![C]⟩ .f32) : FVec F ⟨2, ![N, C]⟩ .f32 :=
  addf (Host.dotGeneral d3W none
      (maximumf (addf (Host.dotGeneral d2W none
          (maximumf (addf (Host.dotGeneral d1W none (subf HD HS) w1)
              (broadcastInDim ⟨2, ![N, A]⟩ ![0, 1] h12 (broadcastInDim ⟨2, ![1, A]⟩ ![1] h11 b1)))
            (broadcastInDim ⟨2, ![N, A]⟩ ![] h10 (constant (F := F) ⟨0, ![]⟩ .f32 0x00000000#32))) w2)
          (broadcastInDim ⟨2, ![N, B]⟩ ![0, 1] h22 (broadcastInDim ⟨2, ![1, B]⟩ ![1] h21 b2)))
        (broadcastInDim ⟨2, ![N, B]⟩ ![] h20 (constant (F := F) ⟨0, ![]⟩ .f32 0x00000000#32))) w3)
    (broadcastInDim ⟨2, ![N, C]⟩ ![0, 1] h32 (broadcastInDim ⟨2, ![1, C]⟩ ![1] h31 b3))

/-- Equal operands give equal results. -/
theorem whole_congr {F : FTy → Type} [FloatOps F]
    {d1W : DotDims ⟨2, ![N, K]⟩ ⟨2, ![K, A]⟩ ⟨2, ![N, A]⟩} {d2W : DotDims ⟨2, ![N, A]⟩ ⟨2, ![A, B]⟩ ⟨2, ![N, B]⟩}
    {d3W : DotDims ⟨2, ![N, B]⟩ ⟨2, ![B, C]⟩ ⟨2, ![N, C]⟩} {h11 h12 h10 h21 h22 h20 h31 h32}
    {HD HD' HS HS' : FVec F ⟨2, ![N, K]⟩ .f32}
    {w1 w1' : FVec F ⟨2, ![K, A]⟩ .f32} {b1 b1' : FVec F ⟨1, ![A]⟩ .f32}
    {w2 w2' : FVec F ⟨2, ![A, B]⟩ .f32} {b2 b2' : FVec F ⟨1, ![B]⟩ .f32}
    {w3 w3' : FVec F ⟨2, ![B, C]⟩ .f32} {b3 b3' : FVec F ⟨1, ![C]⟩ .f32}
    (eD : HD = HD') (eS : HS = HS') (e1 : w1 = w1') (f1 : b1 = b1') (e2 : w2 = w2') (f2 : b2 = b2')
    (e3 : w3 = w3') (f3 : b3 = b3') :
    whole d1W d2W d3W h11 h12 h10 h21 h22 h20 h31 h32 HD HS w1 b1 w2 b2 w3 b3
      = whole d1W d2W d3W h11 h12 h10 h21 h22 h20 h31 h32 HD' HS' w1' b1' w2' b2' w3' b3' := by
  subst eD eS e1 f1 e2 f2 e3 f3; rfl

end Cert.Mlp

end
-- ==== Proof.KRegion0.lean ====
/-
  The first kernel region: the node features times the projection matrix, tile by tile.

  The region walks the 100000 rows of `x` in 20 tiles of 5000 rows. At tile `t` it is handed rows
  `5000 t … 5000 t + 4999` of `x` and the whole 256 × 256 weight matrix, and writes back the tile's product as rows
  `5000 t … 5000 t + 4999` of the result. Row `r` of a tile's product depends on row `r` of the tile alone, and is
  the sum over `k` of `x (5000 t + r, k) · w (k, q)`: that is row `5000 t + r` of the whole product `x · w`
  (`Cert.Mlp.proj_rows`). The 20 tiles are disjoint and cover every row, so after the region the result array holds
  the whole product, entry by entry: `array_eq`.
-/
import proofs.«144195_j8048768712805_1_alg».proof.Proof.Gen.KernelIdeal.Frame
import proofs.«144195_j8048768712805_1_alg».proof.Proof.Layers

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.ShloMosaic.Pipeline (Dat Cfg Window)
open Cert.Lib Cert.Mlp

/-- The tile's dimension numbers describe a plain `[5000, 256] × [256, 256]` product. -/
theorem plain_tile : PlainDot (R := 5000) (K := 256) (M := 256) dot_S5000x256_S256x256_S5000x256_1_0_0_1_n_n :=
  ⟨rfl, rfl,
    fun i q => by
      unfold DotDims.lhsIdx
      rw [dif_neg (show ¬(0 : Fin S5000x256.rank) ∈ dot_S5000x256_S256x256_S5000x256_1_0_0_1_n_n.lhsBatch by decide),
        dif_pos (show (0 : Fin S5000x256.rank) ∈ dot_S5000x256_S256x256_S5000x256_1_0_0_1_n_n.lhsNonContracting by decide)]
      rfl,
    fun i q => dot_S5000x256_S256x256_S5000x256_1_0_0_1_n_n.lhsIdx_val_of_single rfl i q,
    fun i q => dot_S5000x256_S256x256_S5000x256_1_0_0_1_n_n.rhsIdx_val_of_single rfl i q,
    fun i q => by
      unfold DotDims.rhsIdx
      rw [dif_neg (show ¬(1 : Fin S256x256.rank) ∈ dot_S5000x256_S256x256_S5000x256_1_0_0_1_n_n.rhsBatch by decide),
        dif_pos (show (1 : Fin S256x256.rank) ∈ dot_S5000x256_S256x256_S5000x256_1_0_0_1_n_n.rhsNonContracting by decide)]
      rfl⟩

-- the contents of the core's buffers when the region is entered: any
variable (V : (c : Dev nD) → (b : Ref sig .tc) → Buf (Elt Ideal) ((c : Thread nD τ).loc b))

/-- The feature matrix and the projection matrix as the region finds them. -/
abbrev xarr (c : Dev nD) : FVec Ideal ⟨2, ![100000, 256]⟩ .f32 := V c main_arg0
abbrev warr (c : Dev nD) : FVec Ideal ⟨2, ![256, 256]⟩ .f32 := V c main_arg3

theorem hz : (![0, 0] : Fin 2 → Nat) = fun _ => 0 := funext fun a => by fin_cases a <;> rfl

/-- The printed index maps over the grid: tile `t` of `x` and of the result is block `(t, 0)`; the weight matrix is
    block `(0, 0)` at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `r` of tile `t` is row `5000 t + r` of the array. -/
def rowOf (t : Fin cfg0.N) (r : Fin 5000) : Fin 100000 :=
  ⟨5000 * t.val + r.val, by have h : t.val < 20 := Nat.lt_of_lt_of_eq t.isLt N_0; have := r.isLt; omega⟩

/-- The block of `x` handed to point `t`, at `(r, k)`: `x (5000 t + r, k)`. -/
theorem xblk_apply (c : Dev nD) (t : Fin cfg0.N) (r : Fin 5000) (k : Fin 256) :
    (iblk0 V c 0 t : Vec Ideal S5000x256 .f32) (ix2 r k) = xarr V c (ix2 (rowOf t r) k) := by
  obtain ⟨e0, e1, -⟩ := idx_facts t
  unfold iblk0
  rw [View.read_apply]
  show V c main_arg0 _ = V c main_arg0 _
  refine congrArg (V c main_arg0) (funext fun a => Fin.ext ?_)
  match a with
  | ⟨0, _⟩ => show win0_0.index t 0 * 5000 + 1 * r.val = 5000 * t.val + r.val; rw [e0]; omega
  | ⟨1, _⟩ => show win0_0.index t 1 * 256 + 1 * k.val = k.val; rw [e1]; omega

/-- The block of the weight matrix handed to point `t` is the whole matrix. -/
theorem wblk_eq (c : Dev nD) (t : Fin cfg0.N) : (iblk0 V c 1 t : Vec Ideal S256x256 .f32) = warr V c := by
  obtain ⟨-, -, e0, e1, -⟩ := idx_facts t
  funext x
  unfold iblk0
  rw [View.read_apply]
  show V c main_arg3 _ = V c main_arg3 _
  refine congrArg (V c main_arg3) (funext fun a => Fin.ext ?_)
  match a with
  | ⟨0, _⟩ => show win0_1.index t 0 * 256 + 1 * (x 0).val = (x 0).val; rw [e0]; omega
  | ⟨1, _⟩ => show win0_1.index t 1 * 256 + 1 * (x 1).val = (x 1).val; rw [e1]; omega

variable {dW : DotDims ⟨2, ![100000, 256]⟩ ⟨2, ![256, 256]⟩ ⟨2, ![100000, 256]⟩}

/-- What the body computes at point `t`, at `(r, q)`: the whole product at `(5000 t + r, q)`. -/
theorem tile_point (hW : PlainDot dW) (c : Dev nD) (t : Fin cfg0.N) (r : Fin 5000) (q : Fin 256) :
    k0_pay1 (iblk0 V c 0 t) (iblk0 V c 1 t) (ix2 r q)
      = Host.dotGeneral dW none (xarr V c) (warr V c) (ix2 (rowOf t r) q) := by
  have hw := wblk_eq V c t
  unfold k0_pay1
  rw [hw]
  exact proj_rows plain_tile hW (iblk0 V c 0 t) (xarr V c) (warr V c) (rowOf t)
    (fun r k => xblk_apply V c t r k) bitsLt_bf16_f32 r q

/-- WHAT POINT `t` WRITES BACK is block `t` of the whole product. -/
theorem flushed_eq (hW : PlainDot dW) (c : Dev nD) (t : Fin cfg0.N) :
    (dat0 V c).flushed 2 t
      = ((cfg0.win 2).blk t).view.read (Elt Ideal) (Host.dotGeneral dW none (xarr V c) (warr V c)) := by
  obtain ⟨-, -, -, -, e0, e1⟩ := idx_facts t
  show (cfg0.win 2).cut (grid0.coords t) ((dat0 V c).after 2 t) = _
  rw [after0_2]
  unfold out0_2
  rw [View.canon_unit_zero hz]
  simp only [View.ld_unit_zero (S := S5000x256) hz, View.ld_unit_zero (S := S256x256) hz]
  funext j
  obtain ⟨r, q, rfl⟩ : ∃ (r : Fin 5000) (q : Fin 256), j = ix2 r q := ⟨j 0, j 1, eq_ix2 j⟩
  rw [View.read_apply]
  refine (tile_point V hW c t r q).trans ?_
  refine congrArg (Host.dotGeneral dW none (xarr V c) (warr V c)) (funext fun a => Fin.ext ?_)
  match a with
  | ⟨0, _⟩ => show 5000 * t.val + r.val = win0_2.index t 0 * 5000 + 1 * r.val; rw [e0]; omega
  | ⟨1, _⟩ => show q.val = win0_2.index t 1 * 256 + 1 * q.val; rw [e1]; omega

/-- An index of the result array is in point `t`'s block iff each coordinate is in the block's range on its axis. -/
theorem mem_blk (t : Fin cfg0.N) (i : S100000x256.Idx) :
    i ∈ ((cfg0.win 2).blk t).view.set ↔ ∀ a : Fin 2, win0_2.index t a * S5000x256.size a ≤ (i a).val
      ∧ (i a).val < win0_2.index t a * S5000x256.size a + S5000x256.size a := by
  show i ∈ ((View.whole main_v0).slice (win0_2.rect t)).set ↔ _
  rw [View.set_slice_whole, Rect.mem_set_unit]
  exact Iff.rfl

/-- Every row is in the tile `row / 5000`. -/
theorem cover (i : S100000x256.Idx) :
    ∃ t : Fin cfg0.N, (cfg0.win 2).flush t = true ∧ i ∈ ((cfg0.win 2).blk t).view.set := by
  have hi0 : (i 0).val < 100000 := (i 0).isLt
  have hi1 : (i 1).val < 256 := (i 1).isLt
  have hN : cfg0.N = 20 := N_0
  refine ⟨⟨(i 0).val / 5000, by omega⟩, flush0_2 _, ?_⟩
  obtain ⟨-, -, -, -, e0, e1⟩ := idx_facts ⟨(i 0).val / 5000, by omega⟩
  rw [mem_blk]
  intro a
  match a with
  | ⟨0, _⟩ =>
    show win0_2.index ⟨(i 0).val / 5000, _⟩ 0 * 5000 ≤ (i 0).val
      ∧ (i 0).val < win0_2.index ⟨(i 0).val / 5000, _⟩ 0 * 5000 + 5000
    rw [e0]; show (i 0).val / 5000 * 5000 ≤ (i 0).val ∧ (i 0).val < (i 0).val / 5000 * 5000 + 5000; omega
  | ⟨1, _⟩ =>
    show win0_2.index ⟨(i 0).val / 5000, _⟩ 1 * 256 ≤ (i 1).val
      ∧ (i 1).val < win0_2.index ⟨(i 0).val / 5000, _⟩ 1 * 256 + 256
    rw [e1]; omega

/-- THE ARRAY after the region: the whole product of the two matrices the region found. -/
theorem array_eq (hW : PlainDot dW) (c : Dev nD) :
    (dat0 V c).arrAt 2 cfg0.N = Host.dotGeneral dW none (xarr V c) (warr V c) :=
  (dat0 V c).arrAt_eq_of_cover 2 _ (fun t _ => flushed_eq V hW c t) (cover)

end Cert.KernelIdeal.Region0

end
-- ==== Proof.KRegion1.lean ====
/-
  The second kernel region: the three dense layers on the gathered rows, tile by tile.

  The region walks the 400000 query rows in 100 tiles of 4000 rows. At tile `t` it is handed rows
  `4000 t … 4000 t + 3999` of the two gathered tables, and, whole, the three weight matrices and the three bias rows;
  it writes back the tile's `[4000, 1]` result as rows `4000 t … 4000 t + 3999` of the output column. Every layer acts
  on each row by itself (`Cert.Mlp.mlp_rows`), so the tile's result at row `r` is the plain program's three layers on
  the whole tables at row `4000 t + r`; the 100 tiles are disjoint and cover every row, so after the region the output
  column holds the plain program's three layers of the whole tables: `array_eq`.
  The bias rows arrive as `[1, M]` arrays; all that is used of them is that their one row is the bias vector.
-/
import proofs.«144195_j8048768712805_1_alg».proof.Proof.Gen.KernelIdeal.Frame
import proofs.«144195_j8048768712805_1_alg».proof.Proof.Layers

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.ShloMosaic.Pipeline (Dat Cfg Window)
open Cert.Lib Cert.Mlp

/-- The three tiles' dimension numbers describe plain products. -/
theorem plain1 : PlainDot (R := 4000) (K := 256) (M := 128) dot_S4000x256_S256x128_S4000x128_1_0_0_1_n_n :=
  ⟨rfl, rfl,
    fun i q => by
      unfold DotDims.lhsIdx
      rw [dif_neg (show ¬(0 : Fin S4000x256.rank) ∈ dot_S4000x256_S256x128_S4000x128_1_0_0_1_n_n.lhsBatch by decide),
        dif_pos (show (0 : Fin S4000x256.rank) ∈ dot_S4000x256_S256x128_S4000x128_1_0_0_1_n_n.lhsNonContracting by decide)]
      rfl,
    fun i q => dot_S4000x256_S256x128_S4000x128_1_0_0_1_n_n.lhsIdx_val_of_single rfl i q,
    fun i q => dot_S4000x256_S256x128_S4000x128_1_0_0_1_n_n.rhsIdx_val_of_single rfl i q,
    fun i q => by
      unfold DotDims.rhsIdx
      rw [dif_neg (show ¬(1 : Fin S256x128.rank) ∈ dot_S4000x256_S256x128_S4000x128_1_0_0_1_n_n.rhsBatch by decide),
        dif_pos (show (1 : Fin S256x128.rank) ∈ dot_S4000x256_S256x128_S4000x128_1_0_0_1_n_n.rhsNonContracting by decide)]
      rfl⟩
theorem plain2 : PlainDot (R := 4000) (K := 128) (M := 32) dot_S4000x128_S128x32_S4000x32_1_0_0_1_n_n :=
  ⟨rfl, rfl,
    fun i q => by
      unfold DotDims.lhsIdx
      rw [dif_neg (show ¬(0 : Fin S4000x128.rank) ∈ dot_S4000x128_S128x32_S4000x32_1_0_0_1_n_n.lhsBatch by decide),
        dif_pos (show (0 : Fin S4000x128.rank) ∈ dot_S4000x128_S128x32_S4000x32_1_0_0_1_n_n.lhsNonContracting by decide)]
      rfl,
    fun i q => dot_S4000x128_S128x32_S4000x32_1_0_0_1_n_n.lhsIdx_val_of_single rfl i q,
    fun i q => dot_S4000x128_S128x32_S4000x32_1_0_0_1_n_n.rhsIdx_val_of_single rfl i q,
    fun i q => by
      unfold DotDims.rhsIdx
      rw [dif_neg (show ¬(1 : Fin S128x32.rank) ∈ dot_S4000x128_S128x32_S4000x32_1_0_0_1_n_n.rhsBatch by decide),
        dif_pos (show (1 : Fin S128x32.rank) ∈ dot_S4000x128_S128x32_S4000x32_1_0_0_1_n_n.rhsNonContracting by decide)]
      rfl⟩
theorem plain3 : PlainDot (R := 4000) (K := 32) (M := 1) dot_S4000x32_S32x1_S4000x1_1_0_0_1_n_n :=
  ⟨rfl, rfl,
    fun i q => by
      unfold DotDims.lhsIdx
      rw [dif_neg (show ¬(0 : Fin S4000x32.rank) ∈ dot_S4000x32_S32x1_S4000x1_1_0_0_1_n_n.lhsBatch by decide),
        dif_pos (show (0 : Fin S4000x32.rank) ∈ dot_S4000x32_S32x1_S4000x1_1_0_0_1_n_n.lhsNonContracting by decide)]
      rfl,
    fun i q => dot_S4000x32_S32x1_S4000x1_1_0_0_1_n_n.lhsIdx_val_of_single rfl i q,
    fun i q => dot_S4000x32_S32x1_S4000x1_1_0_0_1_n_n.rhsIdx_val_of_single rfl i q,
    fun i q => by
      unfold DotDims.rhsIdx
      rw [dif_neg (show ¬(1 : Fin S32x1.rank) ∈ dot_S4000x32_S32x1_S4000x1_1_0_0_1_n_n.rhsBatch by decide),
        dif_pos (show (1 : Fin S32x1.rank) ∈ dot_S4000x32_S32x1_S4000x1_1_0_0_1_n_n.rhsNonContracting by decide)]
      rfl⟩

-- the contents of the core's buffers when the region is entered: any
variable (V : (c : Dev nD) → (b : Ref sig .tc) → Buf (Elt Ideal) ((c : Thread nD τ).loc b))

/-- The two gathered tables, the weights and the bias rows as the region finds them. -/
abbrev hdArr (c : Dev nD) : FVec Ideal ⟨2, ![400000, 256]⟩ .f32 := V c main_v57
abbrev hsArr (c : Dev nD) : FVec Ideal ⟨2, ![400000, 256]⟩ .f32 := V c main_v66
abbrev w1Arr (c : Dev nD) : FVec Ideal ⟨2, ![256, 128]⟩ .f32 := V c main_arg5
abbrev c1Arr (c : Dev nD) : FVec Ideal ⟨2, ![1, 128]⟩ .f32 := V c main_v67
abbrev w2Arr (c : Dev nD) : FVec Ideal ⟨2, ![128, 32]⟩ .f32 := V c main_arg7
abbrev c2Arr (c : Dev nD) : FVec Ideal ⟨2, ![1, 32]⟩ .f32 := V c main_v68
abbrev w3Arr (c : Dev nD) : FVec Ideal ⟨2, ![32, 1]⟩ .f32 := V c main_arg9
abbrev c3Arr (c : Dev nD) : FVec Ideal ⟨2, ![1, 1]⟩ .f32 := V c main_v69

theorem hz : (![0, 0] : Fin 2 → Nat) = fun _ => 0 := funext fun a => by fin_cases a <;> rfl

/-- The printed index maps over the grid: tile `t` of the two tables and of the output is block `(t, 0)`. -/
theorem idx_rows : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_8.index t (0 : Fin 2) = t.val ∧ win1_8.index t (1 : Fin 2) = 0) :=
  (by decide +kernel : ∀ t : Fin grid1.N, _)

/-- The weights and the bias rows are block `(0, 0)` at every point. -/
theorem idx_whole : ∀ t : Fin cfg1.N,
    (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0) :=
  (by decide +kernel : ∀ t : Fin grid1.N, _)

/-- Row `r` of tile `t` is row `4000 t + r` of the array. -/
def rowOf (t : Fin cfg1.N) (r : Fin 4000) : Fin 400000 :=
  ⟨4000 * t.val + r.val, by have h : t.val < 100 := Nat.lt_of_lt_of_eq t.isLt N_1; have := r.isLt; omega⟩

/-- The block of window 0 handed to point `t`, at `(r, k)`: the array at `(4000 t + r, k)`. -/
theorem rows0_apply (c : Dev nD) (t : Fin cfg1.N) (r : Fin 4000) (k : Fin 256) :
    (iblk1 V c 0 t : Vec Ideal S4000x256 .f32) (ix2 r k)
      = hdArr V c (ix2 (rowOf t r) k) := by
  obtain ⟨e0, e1⟩ := (idx_rows t).1
  unfold iblk1
  rw [View.read_apply]
  show V c main_v57 _ = V c main_v57 _
  refine congrArg (V c main_v57) (funext fun a => Fin.ext ?_)
  match a with
  | ⟨0, _⟩ => show win1_0.index t 0 * 4000 + 1 * r.val = 4000 * t.val + r.val; rw [e0]; omega
  | ⟨1, _⟩ => show win1_0.index t 1 * 256 + 1 * k.val = k.val; rw [e1]; omega

/-- The block of window 1 handed to point `t`, at `(r, k)`: the array at `(4000 t + r, k)`. -/
theorem rows1_apply (c : Dev nD) (t : Fin cfg1.N) (r : Fin 4000) (k : Fin 256) :
    (iblk1 V c 1 t : Vec Ideal S4000x256 .f32) (ix2 r k)
      = hsArr V c (ix2 (rowOf t r) k) := by
  obtain ⟨e0, e1⟩ := (idx_rows t).2.1
  unfold iblk1
  rw [View.read_apply]
  show V c main_v66 _ = V c main_v66 _
  refine congrArg (V c main_v66) (funext fun a => Fin.ext ?_)
  match a with
  | ⟨0, _⟩ => show win1_1.index t 0 * 4000 + 1 * r.val = 4000 * t.val + r.val; rw [e0]; omega
  | ⟨1, _⟩ => show win1_1.index t 1 * 256 + 1 * k.val = k.val; rw [e1]; omega

/-- Window 2 is handed whole at every point. -/
theorem blk2_eq (c : Dev nD) (t : Fin cfg1.N) :
    (iblk1 V c 2 t : Vec Ideal S256x128 .f32) = w1Arr V c := by
  have e0 : win1_2.index t (0 : Fin 2) = 0 := (idx_whole t).1.1
  have e1 : win1_2.index t (1 : Fin 2) = 0 := (idx_whole t).1.2
  funext x
  unfold iblk1
  rw [View.read_apply]
  show V c main_arg5 _ = V c main_arg5 _
  refine congrArg (V c main_arg5) (funext fun a => Fin.ext ?_)
  match a with
  | ⟨0, _⟩ => show win1_2.index t 0 * 256 + 1 * (x 0).val = (x 0).val; rw [e0]; omega
  | ⟨1, _⟩ => show win1_2.index t 1 * 128 + 1 * (x 1).val = (x 1).val; rw [e1]; omega

/-- Window 3 is handed whole at every point. -/
theorem blk3_eq (c : Dev nD) (t : Fin cfg1.N) :
    (iblk1 V c 3 t : Vec Ideal S1x128 .f32) = c1Arr V c := by
  have e0 : win1_3.index t (0 : Fin 2) = 0 := (idx_whole t).2.1.1
  have e1 : win1_3.index t (1 : Fin 2) = 0 := (idx_whole t).2.1.2
  funext x
  unfold iblk1
  rw [View.read_apply]
  show V c main_v67 _ = V c main_v67 _
  refine congrArg (V c main_v67) (funext fun a => Fin.ext ?_)
  match a with
  | ⟨0, _⟩ => show win1_3.index t 0 * 1 + 1 * (x 0).val = (x 0).val; rw [e0]; omega
  | ⟨1, _⟩ => show win1_3.index t 1 * 128 + 1 * (x 1).val = (x 1).val; rw [e1]; omega

/-- Window 4 is handed whole at every point. -/
theorem blk4_eq (c : Dev nD) (t : Fin cfg1.N) :
    (iblk1 V c 4 t : Vec Ideal S128x32 .f32) = w2Arr V c := by
  have e0 : win1_4.index t (0 : Fin 2) = 0 := (idx_whole t).2.2.1.1
  have e1 : win1_4.index t (1 : Fin 2) = 0 := (idx_whole t).2.2.1.2
  funext x
  unfold iblk1
  rw [View.read_apply]
  show V c main_arg7 _ = V c main_arg7 _
  refine congrArg (V c main_arg7) (funext fun a => Fin.ext ?_)
  match a with
  | ⟨0, _⟩ => show win1_4.index t 0 * 128 + 1 * (x 0).val = (x 0).val; rw [e0]; omega
  | ⟨1, _⟩ => show win1_4.index t 1 * 32 + 1 * (x 1).val = (x 1).val; rw [e1]; omega

/-- Window 5 is handed whole at every point. -/
theorem blk5_eq (c : Dev nD) (t : Fin cfg1.N) :
    (iblk1 V c 5 t : Vec Ideal S1x32 .f32) = c2Arr V c := by
  have e0 : win1_5.index t (0 : Fin 2) = 0 := (idx_whole t).2.2.2.1.1
  have e1 : win1_5.index t (1 : Fin 2) = 0 := (idx_whole t).2.2.2.1.2
  funext x
  unfold iblk1
  rw [View.read_apply]
  show V c main_v68 _ = V c main_v68 _
  refine congrArg (V c main_v68) (funext fun a => Fin.ext ?_)
  match a with
  | ⟨0, _⟩ => show win1_5.index t 0 * 1 + 1 * (x 0).val = (x 0).val; rw [e0]; omega
  | ⟨1, _⟩ => show win1_5.index t 1 * 32 + 1 * (x 1).val = (x 1).val; rw [e1]; omega

/-- Window 6 is handed whole at every point. -/
theorem blk6_eq (c : Dev nD) (t : Fin cfg1.N) :
    (iblk1 V c 6 t : Vec Ideal S32x1 .f32) = w3Arr V c := by
  have e0 : win1_6.index t (0 : Fin 2) = 0 := (idx_whole t).2.2.2.2.1.1
  have e1 : win1_6.index t (1 : Fin 2) = 0 := (idx_whole t).2.2.2.2.1.2
  funext x
  unfold iblk1
  rw [View.read_apply]
  show V c main_arg9 _ = V c main_arg9 _
  refine congrArg (V c main_arg9) (funext fun a => Fin.ext ?_)
  match a with
  | ⟨0, _⟩ => show win1_6.index t 0 * 32 + 1 * (x 0).val = (x 0).val; rw [e0]; omega
  | ⟨1, _⟩ => show win1_6.index t 1 * 1 + 1 * (x 1).val = (x 1).val; rw [e1]; omega

/-- Window 7 is handed whole at every point. -/
theorem blk7_eq (c : Dev nD) (t : Fin cfg1.N) :
    (iblk1 V c 7 t : Vec Ideal S1x1 .f32) = c3Arr V c := by
  have e0 : win1_7.index t (0 : Fin 2) = 0 := (idx_whole t).2.2.2.2.2.1
  have e1 : win1_7.index t (1 : Fin 2) = 0 := (idx_whole t).2.2.2.2.2.2
  funext x
  unfold iblk1
  rw [View.read_apply]
  show V c main_v69 _ = V c main_v69 _
  refine congrArg (V c main_v69) (funext fun a => Fin.ext ?_)
  match a with
  | ⟨0, _⟩ => show win1_7.index t 0 * 1 + 1 * (x 0).val = (x 0).val; rw [e0]; omega
  | ⟨1, _⟩ => show win1_7.index t 1 * 1 + 1 * (x 1).val = (x 1).val; rw [e1]; omega

variable {d1W : DotDims ⟨2, ![400000, 256]⟩ ⟨2, ![256, 128]⟩ ⟨2, ![400000, 128]⟩}
  {d2W : DotDims ⟨2, ![400000, 128]⟩ ⟨2, ![128, 32]⟩ ⟨2, ![400000, 32]⟩}
  {d3W : DotDims ⟨2, ![400000, 32]⟩ ⟨2, ![32, 1]⟩ ⟨2, ![400000, 1]⟩}
  {h11 : (⟨1, ![128]⟩ : Shape).BroadcastsInDim ⟨2, ![1, 128]⟩ (![1] : Fin 1 → Fin 2)}
  {h12 : (⟨2, ![1, 128]⟩ : Shape).BroadcastsInDim ⟨2, ![400000, 128]⟩ (![0, 1] : Fin 2 → Fin 2)}
  {h10 : (⟨0, ![]⟩ : Shape).BroadcastsInDim ⟨2, ![400000, 128]⟩ ![]}
  {h21 : (⟨1, ![32]⟩ : Shape).BroadcastsInDim ⟨2, ![1, 32]⟩ (![1] : Fin 1 → Fin 2)}
  {h22 : (⟨2, ![1, 32]⟩ : Shape).BroadcastsInDim ⟨2, ![400000, 32]⟩ (![0, 1] : Fin 2 → Fin 2)}
  {h20 : (⟨0, ![]⟩ : Shape).BroadcastsInDim ⟨2, ![400000, 32]⟩ ![]}
  {h31 : (⟨1, ![1]⟩ : Shape).BroadcastsInDim ⟨2, ![1, 1]⟩ (![1] : Fin 1 → Fin 2)}
  {h32 : (⟨2, ![1, 1]⟩ : Shape).BroadcastsInDim ⟨2, ![400000, 1]⟩ (![0, 1] : Fin 2 → Fin 2)}

/-- The plain program's three layers of the tables and weights the region found, with bias vectors `b1 b2 b3`. -/
abbrev wholeOf (d1W : DotDims ⟨2, ![400000, 256]⟩ ⟨2, ![256, 128]⟩ ⟨2, ![400000, 128]⟩)
    (d2W : DotDims ⟨2, ![400000, 128]⟩ ⟨2, ![128, 32]⟩ ⟨2, ![400000, 32]⟩)
    (d3W : DotDims ⟨2, ![400000, 32]⟩ ⟨2, ![32, 1]⟩ ⟨2, ![400000, 1]⟩)
    (h11 : (⟨1, ![128]⟩ : Shape).BroadcastsInDim ⟨2, ![1, 128]⟩ (![1] : Fin 1 → Fin 2))
    (h12 : (⟨2, ![1, 128]⟩ : Shape).BroadcastsInDim ⟨2, ![400000, 128]⟩ (![0, 1] : Fin 2 → Fin 2))
    (h10 : (⟨0, ![]⟩ : Shape).BroadcastsInDim ⟨2, ![400000, 128]⟩ ![])
    (h21 : (⟨1, ![32]⟩ : Shape).BroadcastsInDim ⟨2, ![1, 32]⟩ (![1] : Fin 1 → Fin 2))
    (h22 : (⟨2, ![1, 32]⟩ : Shape).BroadcastsInDim ⟨2, ![400000, 32]⟩ (![0, 1] : Fin 2 → Fin 2))
    (h20 : (⟨0, ![]⟩ : Shape).BroadcastsInDim ⟨2, ![400000, 32]⟩ ![])
    (h31 : (⟨1, ![1]⟩ : Shape).BroadcastsInDim ⟨2, ![1, 1]⟩ (![1] : Fin 1 → Fin 2))
    (h32 : (⟨2, ![1, 1]⟩ : Shape).BroadcastsInDim ⟨2, ![400000, 1]⟩ (![0, 1] : Fin 2 → Fin 2))
    (b1 : FVec Ideal ⟨1, ![128]⟩ .f32) (b2 : FVec Ideal ⟨1, ![32]⟩ .f32) (b3 : FVec Ideal ⟨1, ![1]⟩ .f32) (c : Dev nD) :
    FVec Ideal ⟨2, ![400000, 1]⟩ .f32 :=
  whole d1W d2W d3W h11 h12 h10 h21 h22 h20 h31 h32 (hdArr V c) (hsArr V c) (w1Arr V c) b1 (w2Arr V c) b2 (w3Arr V c) b3

/-- What the body computes at point `t`, at `(r, q)`: the plain program's three layers at `(4000 t + r, q)`. -/
theorem tile_point (h1W : PlainDot d1W) (h2W : PlainDot d2W) (h3W : PlainDot d3W)
    (b1 : FVec Ideal ⟨1, ![128]⟩ .f32) (b2 : FVec Ideal ⟨1, ![32]⟩ .f32) (b3 : FVec Ideal ⟨1, ![1]⟩ .f32) (c : Dev nD)
    (hc1 : ∀ q : Fin 128, c1Arr V c (ix2 (0 : Fin 1) q) = b1 (ix1 q))
    (hc2 : ∀ q : Fin 32, c2Arr V c (ix2 (0 : Fin 1) q) = b2 (ix1 q))
    (hc3 : ∀ q : Fin 1, c3Arr V c (ix2 (0 : Fin 1) q) = b3 (ix1 q))
    (t : Fin cfg1.N) (r : Fin 4000) (q : Fin 1) :
    k1_pay1 (iblk1 V c 0 t) (iblk1 V c 1 t) (iblk1 V c 2 t) (iblk1 V c 3 t) (iblk1 V c 4 t) (iblk1 V c 5 t)
        (iblk1 V c 6 t) (iblk1 V c 7 t) (ix2 r q)
      = wholeOf V d1W d2W d3W h11 h12 h10 h21 h22 h20 h31 h32 b1 b2 b3 c (ix2 (rowOf t r) q) := by
  have e2 := blk2_eq V c t
  have e3 := blk3_eq V c t
  have e4 := blk4_eq V c t
  have e5 := blk5_eq V c t
  have e6 := blk6_eq V c t
  have e7 := blk7_eq V c t
  unfold k1_pay1
  rw [e2, e3, e4, e5, e6, e7]
  exact mlp_rows plain1 h1W plain2 h2W plain3 h3W (iblk1 V c 0 t) (iblk1 V c 1 t) (hdArr V c) (hsArr V c)
    (w1Arr V c) (c1Arr V c) b1 (w2Arr V c) (c2Arr V c) b2 (w3Arr V c) (c3Arr V c) b3 (rowOf t)
    (fun r k => rows0_apply V c t r k) (fun r k => rows1_apply V c t r k) hc1 hc2 hc3
    bitsLt_bf16_f32 shapeCasts_S4000x256_S4000x256
    shapeCasts_S1x128_S1x128 broadcasts_S1x128_S4000x128 h11 h12 h10
    shapeCasts_S1x32_S1x32 broadcasts_S1x32_S4000x32 h21 h22 h20
    shapeCasts_S1x1_S1x1 broadcasts_S1x1_S4000x1 h31 h32 r q

/-- WHAT POINT `t` WRITES BACK is block `t` of the plain program's three layers. -/
theorem flushed_eq (h1W : PlainDot d1W) (h2W : PlainDot d2W) (h3W : PlainDot d3W)
    (b1 : FVec Ideal ⟨1, ![128]⟩ .f32) (b2 : FVec Ideal ⟨1, ![32]⟩ .f32) (b3 : FVec Ideal ⟨1, ![1]⟩ .f32) (c : Dev nD)
    (hc1 : ∀ q : Fin 128, c1Arr V c (ix2 (0 : Fin 1) q) = b1 (ix1 q))
    (hc2 : ∀ q : Fin 32, c2Arr V c (ix2 (0 : Fin 1) q) = b2 (ix1 q))
    (hc3 : ∀ q : Fin 1, c3Arr V c (ix2 (0 : Fin 1) q) = b3 (ix1 q)) (t : Fin cfg1.N) :
    (dat1 V c).flushed 8 t
      = ((cfg1.win 8).blk t).view.read (Elt Ideal) (wholeOf V d1W d2W d3W h11 h12 h10 h21 h22 h20 h31 h32 b1 b2 b3 c) := by
  obtain ⟨e0, e1⟩ := (idx_rows t).2.2
  show (cfg1.win 8).cut (grid1.coords t) ((dat1 V c).after 8 t) = _
  rw [after1_8]
  unfold out1_8
  rw [View.canon_unit_zero hz]
  simp only [View.ld_unit_zero (S := S4000x256) hz, View.ld_unit_zero (S := S256x128) hz, View.ld_unit_zero (S := S1x128) hz,
    View.ld_unit_zero (S := S128x32) hz, View.ld_unit_zero (S := S1x32) hz, View.ld_unit_zero (S := S32x1) hz,
    View.ld_unit_zero (S := S1x1) hz]
  funext j
  obtain ⟨r, q, rfl⟩ : ∃ (r : Fin 4000) (q : Fin 1), j = ix2 r q := ⟨j 0, j 1, eq_ix2 j⟩
  rw [View.read_apply]
  refine (tile_point V (h11 := h11) (h12 := h12) (h10 := h10) (h21 := h21) (h22 := h22) (h20 := h20) (h31 := h31) (h32 := h32) h1W h2W h3W b1 b2 b3 c hc1 hc2 hc3 t r q).trans ?_
  refine congrArg (wholeOf V d1W d2W d3W h11 h12 h10 h21 h22 h20 h31 h32 b1 b2 b3 c) (funext fun a => Fin.ext ?_)
  match a with
  | ⟨0, _⟩ => show 4000 * t.val + r.val = win1_8.index t 0 * 4000 + 1 * r.val; rw [e0]; omega
  | ⟨1, _⟩ => show q.val = win1_8.index t 1 * 1 + 1 * q.val; rw [e1]; omega

/-- An index of the output column is in point `t`'s block iff each coordinate is in the block's range on its axis. -/
theorem mem_blk (t : Fin cfg1.N) (i : S400000x1.Idx) :
    i ∈ ((cfg1.win 8).blk t).view.set ↔ ∀ a : Fin 2, win1_8.index t a * S4000x1.size a ≤ (i a).val
      ∧ (i a).val < win1_8.index t a * S4000x1.size a + S4000x1.size a := by
  show i ∈ ((View.whole main_v70).slice (win1_8.rect t)).set ↔ _
  rw [View.set_slice_whole, Rect.mem_set_unit]
  exact Iff.rfl

/-- Every row is in the tile `row / 4000`. -/
theorem cover (i : S400000x1.Idx) :
    ∃ t : Fin cfg1.N, (cfg1.win 8).flush t = true ∧ i ∈ ((cfg1.win 8).blk t).view.set := by
  have hi0 : (i 0).val < 400000 := (i 0).isLt
  have hi1 : (i 1).val < 1 := (i 1).isLt
  have hN : cfg1.N = 100 := N_1
  refine ⟨⟨(i 0).val / 4000, by omega⟩, flush1_8 _, ?_⟩
  obtain ⟨e0, e1⟩ := (idx_rows ⟨(i 0).val / 4000, by omega⟩).2.2
  rw [mem_blk]
  intro a
  match a with
  | ⟨0, _⟩ =>
    show win1_8.index ⟨(i 0).val / 4000, _⟩ 0 * 4000 ≤ (i 0).val
      ∧ (i 0).val < win1_8.index ⟨(i 0).val / 4000, _⟩ 0 * 4000 + 4000
    rw [e0]; show (i 0).val / 4000 * 4000 ≤ (i 0).val ∧ (i 0).val < (i 0).val / 4000 * 4000 + 4000; omega
  | ⟨1, _⟩ =>
    show win1_8.index ⟨(i 0).val / 4000, _⟩ 1 * 1 ≤ (i 1).val
      ∧ (i 1).val < win1_8.index ⟨(i 0).val / 4000, _⟩ 1 * 1 + 1
    rw [e1]; omega

/-- THE ARRAY after the region: the plain program's three layers of the tables and weights the region found. -/
theorem array_eq (h1W : PlainDot d1W) (h2W : PlainDot d2W) (h3W : PlainDot d3W)
    (b1 : FVec Ideal ⟨1, ![128]⟩ .f32) (b2 : FVec Ideal ⟨1, ![32]⟩ .f32) (b3 : FVec Ideal ⟨1, ![1]⟩ .f32) (c : Dev nD)
    (hc1 : ∀ q : Fin 128, c1Arr V c (ix2 (0 : Fin 1) q) = b1 (ix1 q))
    (hc2 : ∀ q : Fin 32, c2Arr V c (ix2 (0 : Fin 1) q) = b2 (ix1 q))
    (hc3 : ∀ q : Fin 1, c3Arr V c (ix2 (0 : Fin 1) q) = b3 (ix1 q)) :
    (dat1 V c).arrAt 8 cfg1.N = wholeOf V d1W d2W d3W h11 h12 h10 h21 h22 h20 h31 h32 b1 b2 b3 c :=
  (dat1 V c).arrAt_eq_of_cover 8 _ (fun t _ => flushed_eq V (h11 := h11) (h12 := h12) (h10 := h10) (h21 := h21) (h22 := h22) (h20 := h20) (h31 := h31) (h32 := h32) h1W h2W h3W b1 b2 b3 c hc1 hc2 hc3 t) (cover)

end Cert.KernelIdeal.Region1

end
-- ==== Proof.Stretch.lean ====
/-
  The stretch of host operations between the two kernel regions, for any float family.

  Between the projection and the three layers both programs run the same operations: the in-degree of every node
  (a scatter of ones along the edges and the self loops), its inverse square root where positive, the product of the
  two ends' factors per edge, the projected rows gathered at the edges' sources and scaled by it, their scatter-add
  at the targets, the bias, and the two row gathers at the query pairs' ends. Nothing here looks inside any of them.

  `refHd`, `refHs` name the two gathered tables of the plain program as what its operations leave in those two
  buffers. Two facts, both comparisons of compositions of the same operations and so true for every float family:
  the plain program's result is its three layers of those two tables (`ref_shape`); and the kernel program's stretch,
  run from any contents that hold the plain program's `dot_general` in the projection's buffer and the same index and
  bias arguments, leaves the same two tables (`hd_of_stretch`, `hs_of_stretch`).
-/
import proofs.«144195_j8048768712805_1_alg».proof.Proof.Gen.KernelIdeal.Launch
import proofs.«144195_j8048768712805_1_alg».proof.Proof.RefRun
import proofs.«144195_j8048768712805_1_alg».proof.Proof.Layers

set_option maxRecDepth 16384

noncomputable section

namespace Cert.Stretch

open Idealize.ShloMosaic Idealize.ShloMosaic.TcCoe Idealize.ShloMosaic.StableHlo
open Cert.Mlp

variable {F : FTy → Type} [FloatOps F]

/-- The plain program's gathered table at the pairs' second ends: what its operations leave in that buffer. -/
def refHd (m' : (ℓ : Loc Cert.ReferenceIdeal.nD Cert.ReferenceIdeal.τ Cert.ReferenceIdeal.sig) → Buf (Elt F) ℓ) (c : Dev Cert.ReferenceIdeal.nD) : FVec F ⟨2, ![400000, 256]⟩ .f32 :=
  StableHlo.after Cert.ReferenceIdeal.Value.ops (launchContents m' c) (Proc.devRef .tc Cert.ReferenceIdeal.main_v57)

/-- The plain program's gathered table at the pairs' first ends. -/
def refHs (m' : (ℓ : Loc Cert.ReferenceIdeal.nD Cert.ReferenceIdeal.τ Cert.ReferenceIdeal.sig) → Buf (Elt F) ℓ) (c : Dev Cert.ReferenceIdeal.nD) : FVec F ⟨2, ![400000, 256]⟩ .f32 :=
  StableHlo.after Cert.ReferenceIdeal.Value.ops (launchContents m' c) (Proc.devRef .tc Cert.ReferenceIdeal.main_v66)

set_option maxHeartbeats 40000000 in
/-- The plain program's result is the reshape of its three layers of its two gathered tables. -/
theorem ref_shape (m' : (ℓ : Loc Cert.ReferenceIdeal.nD Cert.ReferenceIdeal.τ Cert.ReferenceIdeal.sig) → Buf (Elt F) ℓ) (c : Dev Cert.ReferenceIdeal.nD) :
    Cert.ReferenceIdeal.Value.res_main_v82 m' c
      = shapeCast Cert.ReferenceIdeal.S400000 (whole Cert.ReferenceIdeal.dot_S400000x256_S256x128_S400000x128_1_0_0_1_n_n
        Cert.ReferenceIdeal.dot_S400000x128_S128x32_S400000x32_1_0_0_1_n_n Cert.ReferenceIdeal.dot_S400000x32_S32x1_S400000x1_1_0_0_1_n_n
        Cert.ReferenceIdeal.Facts₀.bcast_S128_S1x128_1 Cert.ReferenceIdeal.Facts₀.bcast_S1x128_S400000x128_0_1 Cert.ReferenceIdeal.Facts₀.bcast_S_S400000x128
        Cert.ReferenceIdeal.Facts₀.bcast_S32_S1x32_1 Cert.ReferenceIdeal.Facts₀.bcast_S1x32_S400000x32_0_1 Cert.ReferenceIdeal.Facts₀.bcast_S_S400000x32
        Cert.ReferenceIdeal.Facts₀.bcast_S1_S1x1_1 Cert.ReferenceIdeal.Facts₀.bcast_S1x1_S400000x1_0_1
        (refHd m' c) (refHs m' c)
        (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)))
        Cert.ReferenceIdeal.Facts₀.shapeCasts_S400000x1_S400000 := by
  unfold Cert.ReferenceIdeal.Value.res_main_v82 refHd refHs whole
  after_results_simp
  rfl

set_option maxHeartbeats 40000000 in
/-- The kernel program's stretch leaves the plain program's table in the first gather's buffer. -/
theorem hd_of_stretch (W : Valuation Cert.KernelIdeal.τ Cert.KernelIdeal.sig (Elt F))
    (m' : (ℓ : Loc Cert.ReferenceIdeal.nD Cert.ReferenceIdeal.τ Cert.ReferenceIdeal.sig) → Buf (Elt F) ℓ) (c : Dev Cert.ReferenceIdeal.nD)
    (hP : (W (Proc.devRef .tc Cert.KernelIdeal.main_v0) : FVec F ⟨2, ![100000, 256]⟩ .f32)
        = Host.dotGeneral (φ₁ := .f32) (φ₂ := .f32) Cert.ReferenceIdeal.dot_S100000x256_S256x256_S100000x256_1_0_0_1_n_n none (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3)))
    (h1 : W (Proc.devRef .tc Cert.KernelIdeal.main_arg1) = m' ((c.tc : Thread Cert.ReferenceIdeal.nD Cert.ReferenceIdeal.τ).loc Cert.ReferenceIdeal.main_arg1))
    (h2 : W (Proc.devRef .tc Cert.KernelIdeal.main_arg2) = m' ((c.tc : Thread Cert.ReferenceIdeal.nD Cert.ReferenceIdeal.τ).loc Cert.ReferenceIdeal.main_arg2))
    (h4 : W (Proc.devRef .tc Cert.KernelIdeal.main_arg4) = m' ((c.tc : Thread Cert.ReferenceIdeal.nD Cert.ReferenceIdeal.τ).loc Cert.ReferenceIdeal.main_arg4)) :
    (StableHlo.after Cert.KernelIdeal.Gen.hostOps1_2 (StableHlo.after Cert.KernelIdeal.Gen.hostOps1_1 (StableHlo.after Cert.KernelIdeal.Gen.hostOps1 W))
        (Proc.devRef .tc Cert.KernelIdeal.main_v57) : FVec F ⟨2, ![400000, 256]⟩ .f32) = refHd m' c := by
  unfold refHd
  simp only [Cert.KernelIdeal.Gen.hostOps1_2, Cert.KernelIdeal.Gen.hostOps1_1, Cert.KernelIdeal.Gen.hostOps1]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [hP, h1, h2, h4]
  rfl

set_option maxHeartbeats 40000000 in
/-- … and in the second gather's buffer. -/
theorem hs_of_stretch (W : Valuation Cert.KernelIdeal.τ Cert.KernelIdeal.sig (Elt F))
    (m' : (ℓ : Loc Cert.ReferenceIdeal.nD Cert.ReferenceIdeal.τ Cert.ReferenceIdeal.sig) → Buf (Elt F) ℓ) (c : Dev Cert.ReferenceIdeal.nD)
    (hP : (W (Proc.devRef .tc Cert.KernelIdeal.main_v0) : FVec F ⟨2, ![100000, 256]⟩ .f32)
        = Host.dotGeneral (φ₁ := .f32) (φ₂ := .f32) Cert.ReferenceIdeal.dot_S100000x256_S256x256_S100000x256_1_0_0_1_n_n none (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3)))
    (h1 : W (Proc.devRef .tc Cert.KernelIdeal.main_arg1) = m' ((c.tc : Thread Cert.ReferenceIdeal.nD Cert.ReferenceIdeal.τ).loc Cert.ReferenceIdeal.main_arg1))
    (h2 : W (Proc.devRef .tc Cert.KernelIdeal.main_arg2) = m' ((c.tc : Thread Cert.ReferenceIdeal.nD Cert.ReferenceIdeal.τ).loc Cert.ReferenceIdeal.main_arg2))
    (h4 : W (Proc.devRef .tc Cert.KernelIdeal.main_arg4) = m' ((c.tc : Thread Cert.ReferenceIdeal.nD Cert.ReferenceIdeal.τ).loc Cert.ReferenceIdeal.main_arg4)) :
    (StableHlo.after Cert.KernelIdeal.Gen.hostOps1_2 (StableHlo.after Cert.KernelIdeal.Gen.hostOps1_1 (StableHlo.after Cert.KernelIdeal.Gen.hostOps1 W))
        (Proc.devRef .tc Cert.KernelIdeal.main_v66) : FVec F ⟨2, ![400000, 256]⟩ .f32) = refHs m' c := by
  unfold refHs
  simp only [Cert.KernelIdeal.Gen.hostOps1_2, Cert.KernelIdeal.Gen.hostOps1_1, Cert.KernelIdeal.Gen.hostOps1]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [hP, h1, h2, h4]
  rfl

end Cert.Stretch

end
-- ==== Proof.Bridge.lean ====
/-
  The two programs compute one function.

  The kernel's program is: the first region (the projection `x · W`), then a stretch of host operations — the
  degree-normalised scatter of the projected rows over the edges, the bias, and the two row gathers at the query pairs
  —, then the second region (the three dense layers on the gathered rows), then a reshape of the output column. The plain
  program is the same stretch of host operations between one `dot_general` in front and three behind.

  After the first region the projected array is the plain program's `dot_general` of the same two arguments (region
  0's `array_eq`). The host stretch is, operation by operation, the same text in both programs, so it is never opened:
  applied to equal arrays it gives equal gathered tables. After the second region the output column is the plain
  program's three layers of whatever tables and weights the region found (region 1's `array_eq`); the bias rows it
  finds are the reshaped bias vectors, whose one row is the vector. The last reshape is the same on both sides.
  Hence, from memories that agree on the eleven arguments, the kernel's result array is the plain program's: `value_eq`.
-/
import proofs.«144195_j8048768712805_1_alg».proof.Proof.KRegion0
import proofs.«144195_j8048768712805_1_alg».proof.Proof.KRegion1
import proofs.«144195_j8048768712805_1_alg».proof.Proof.RefRun
import proofs.«144195_j8048768712805_1_alg».proof.Proof.Stretch

set_option maxRecDepth 16384

noncomputable section

namespace Cert.Bridge

open Cert.KernelIdeal Cert.KernelIdeal.Gen
open Idealize.ShloMosaic Idealize.ShloMosaic.TcCoe Idealize.ShloMosaic.ValueIdx Idealize.ShloMosaic.StableHlo
open Cert.Lib Cert.Mlp

/-- The plain program's four dimension-number records describe plain products. -/
theorem plainR0 : PlainDot (R := 100000) (K := 256) (M := 256) Cert.ReferenceIdeal.dot_S100000x256_S256x256_S100000x256_1_0_0_1_n_n :=
  ⟨rfl, rfl,
    fun i q => by
      unfold DotDims.lhsIdx
      rw [dif_neg (show ¬(0 : Fin Cert.ReferenceIdeal.S100000x256.rank) ∈ Cert.ReferenceIdeal.dot_S100000x256_S256x256_S100000x256_1_0_0_1_n_n.lhsBatch by decide),
        dif_pos (show (0 : Fin Cert.ReferenceIdeal.S100000x256.rank) ∈ Cert.ReferenceIdeal.dot_S100000x256_S256x256_S100000x256_1_0_0_1_n_n.lhsNonContracting by decide)]
      rfl,
    fun i q => Cert.ReferenceIdeal.dot_S100000x256_S256x256_S100000x256_1_0_0_1_n_n.lhsIdx_val_of_single rfl i q,
    fun i q => Cert.ReferenceIdeal.dot_S100000x256_S256x256_S100000x256_1_0_0_1_n_n.rhsIdx_val_of_single rfl i q,
    fun i q => by
      unfold DotDims.rhsIdx
      rw [dif_neg (show ¬(1 : Fin Cert.ReferenceIdeal.S256x256.rank) ∈ Cert.ReferenceIdeal.dot_S100000x256_S256x256_S100000x256_1_0_0_1_n_n.rhsBatch by decide),
        dif_pos (show (1 : Fin Cert.ReferenceIdeal.S256x256.rank) ∈ Cert.ReferenceIdeal.dot_S100000x256_S256x256_S100000x256_1_0_0_1_n_n.rhsNonContracting by decide)]
      rfl⟩
theorem plainR1 : PlainDot (R := 400000) (K := 256) (M := 128) Cert.ReferenceIdeal.dot_S400000x256_S256x128_S400000x128_1_0_0_1_n_n :=
  ⟨rfl, rfl,
    fun i q => by
      unfold DotDims.lhsIdx
      rw [dif_neg (show ¬(0 : Fin Cert.ReferenceIdeal.S400000x256.rank) ∈ Cert.ReferenceIdeal.dot_S400000x256_S256x128_S400000x128_1_0_0_1_n_n.lhsBatch by decide),
        dif_pos (show (0 : Fin Cert.ReferenceIdeal.S400000x256.rank) ∈ Cert.ReferenceIdeal.dot_S400000x256_S256x128_S400000x128_1_0_0_1_n_n.lhsNonContracting by decide)]
      rfl,
    fun i q => Cert.ReferenceIdeal.dot_S400000x256_S256x128_S400000x128_1_0_0_1_n_n.lhsIdx_val_of_single rfl i q,
    fun i q => Cert.ReferenceIdeal.dot_S400000x256_S256x128_S400000x128_1_0_0_1_n_n.rhsIdx_val_of_single rfl i q,
    fun i q => by
      unfold DotDims.rhsIdx
      rw [dif_neg (show ¬(1 : Fin Cert.ReferenceIdeal.S256x128.rank) ∈ Cert.ReferenceIdeal.dot_S400000x256_S256x128_S400000x128_1_0_0_1_n_n.rhsBatch by decide),
        dif_pos (show (1 : Fin Cert.ReferenceIdeal.S256x128.rank) ∈ Cert.ReferenceIdeal.dot_S400000x256_S256x128_S400000x128_1_0_0_1_n_n.rhsNonContracting by decide)]
      rfl⟩
theorem plainR2 : PlainDot (R := 400000) (K := 128) (M := 32) Cert.ReferenceIdeal.dot_S400000x128_S128x32_S400000x32_1_0_0_1_n_n :=
  ⟨rfl, rfl,
    fun i q => by
      unfold DotDims.lhsIdx
      rw [dif_neg (show ¬(0 : Fin Cert.ReferenceIdeal.S400000x128.rank) ∈ Cert.ReferenceIdeal.dot_S400000x128_S128x32_S400000x32_1_0_0_1_n_n.lhsBatch by decide),
        dif_pos (show (0 : Fin Cert.ReferenceIdeal.S400000x128.rank) ∈ Cert.ReferenceIdeal.dot_S400000x128_S128x32_S400000x32_1_0_0_1_n_n.lhsNonContracting by decide)]
      rfl,
    fun i q => Cert.ReferenceIdeal.dot_S400000x128_S128x32_S400000x32_1_0_0_1_n_n.lhsIdx_val_of_single rfl i q,
    fun i q => Cert.ReferenceIdeal.dot_S400000x128_S128x32_S400000x32_1_0_0_1_n_n.rhsIdx_val_of_single rfl i q,
    fun i q => by
      unfold DotDims.rhsIdx
      rw [dif_neg (show ¬(1 : Fin Cert.ReferenceIdeal.S128x32.rank) ∈ Cert.ReferenceIdeal.dot_S400000x128_S128x32_S400000x32_1_0_0_1_n_n.rhsBatch by decide),
        dif_pos (show (1 : Fin Cert.ReferenceIdeal.S128x32.rank) ∈ Cert.ReferenceIdeal.dot_S400000x128_S128x32_S400000x32_1_0_0_1_n_n.rhsNonContracting by decide)]
      rfl⟩
theorem plainR3 : PlainDot (R := 400000) (K := 32) (M := 1) Cert.ReferenceIdeal.dot_S400000x32_S32x1_S400000x1_1_0_0_1_n_n :=
  ⟨rfl, rfl,
    fun i q => by
      unfold DotDims.lhsIdx
      rw [dif_neg (show ¬(0 : Fin Cert.ReferenceIdeal.S400000x32.rank) ∈ Cert.ReferenceIdeal.dot_S400000x32_S32x1_S400000x1_1_0_0_1_n_n.lhsBatch by decide),
        dif_pos (show (0 : Fin Cert.ReferenceIdeal.S400000x32.rank) ∈ Cert.ReferenceIdeal.dot_S400000x32_S32x1_S400000x1_1_0_0_1_n_n.lhsNonContracting by decide)]
      rfl,
    fun i q => Cert.ReferenceIdeal.dot_S400000x32_S32x1_S400000x1_1_0_0_1_n_n.lhsIdx_val_of_single rfl i q,
    fun i q => Cert.ReferenceIdeal.dot_S400000x32_S32x1_S400000x1_1_0_0_1_n_n.rhsIdx_val_of_single rfl i q,
    fun i q => by
      unfold DotDims.rhsIdx
      rw [dif_neg (show ¬(1 : Fin Cert.ReferenceIdeal.S32x1.rank) ∈ Cert.ReferenceIdeal.dot_S400000x32_S32x1_S400000x1_1_0_0_1_n_n.rhsBatch by decide),
        dif_pos (show (1 : Fin Cert.ReferenceIdeal.S32x1.rank) ∈ Cert.ReferenceIdeal.dot_S400000x32_S32x1_S400000x1_1_0_0_1_n_n.rhsNonContracting by decide)]
      rfl⟩

variable (m : (ℓ : Loc nD τ sig) → Buf (Elt Ideal) ℓ) (ρ : Dev nD → PrngReg)

/-! ## After the first region -/

/-- The projected array after the first region is the `dot_general` of the two arguments. -/
theorem proj_eq (c : Dev nD) :
    (W1 m ρ c (Proc.devRef .tc main_v0) : FVec Ideal ⟨2, ![100000, 256]⟩ .f32)
      = Host.dotGeneral (F := Ideal) (φ₁ := .f32) (φ₂ := .f32) Cert.ReferenceIdeal.dot_S100000x256_S256x256_S100000x256_1_0_0_1_n_n none
          (m ((c : Thread nD τ).loc main_arg0) : FVec Ideal ⟨2, ![100000, 256]⟩ .f32) (m ((c : Thread nD τ).loc main_arg3) : FVec Ideal ⟨2, ![256, 256]⟩ .f32) :=
  (W1_arr m ρ c 2).trans (Region0.array_eq (V0 m ρ) plainR0 c)

/-- An argument the first region does not stage is as launched after it. -/
theorem W1_arg1 (c : Dev nD) : W1 m ρ c (Proc.devRef .tc main_arg1) = m ((c : Thread nD τ).loc main_arg1) := W1_of_ne m ρ c main_arg1 (by decide)
theorem W1_arg2 (c : Dev nD) : W1 m ρ c (Proc.devRef .tc main_arg2) = m ((c : Thread nD τ).loc main_arg2) := W1_of_ne m ρ c main_arg2 (by decide)
theorem W1_arg4 (c : Dev nD) : W1 m ρ c (Proc.devRef .tc main_arg4) = m ((c : Thread nD τ).loc main_arg4) := W1_of_ne m ρ c main_arg4 (by decide)

/-! ## What the second region finds -/

/-- The weights are as launched: no host operation writes them. -/
theorem w1_eq (c : Dev nD) : V4 m ρ c main_arg5 = m ((c : Thread nD τ).loc main_arg5) := by
  show StableHlo.after hostOps1_2 (StableHlo.after hostOps1_1 (StableHlo.after hostOps1 (W1 m ρ c))) (Proc.devRef .tc main_arg5) = _
  simp only [hostOps1_2, hostOps1_1, hostOps1]
  after_results_simp
  exact W1_of_ne m ρ c main_arg5 (by decide)
theorem w2_eq (c : Dev nD) : V4 m ρ c main_arg7 = m ((c : Thread nD τ).loc main_arg7) := by
  show StableHlo.after hostOps1_2 (StableHlo.after hostOps1_1 (StableHlo.after hostOps1 (W1 m ρ c))) (Proc.devRef .tc main_arg7) = _
  simp only [hostOps1_2, hostOps1_1, hostOps1]
  after_results_simp
  exact W1_of_ne m ρ c main_arg7 (by decide)
theorem w3_eq (c : Dev nD) : V4 m ρ c main_arg9 = m ((c : Thread nD τ).loc main_arg9) := by
  show StableHlo.after hostOps1_2 (StableHlo.after hostOps1_1 (StableHlo.after hostOps1 (W1 m ρ c))) (Proc.devRef .tc main_arg9) = _
  simp only [hostOps1_2, hostOps1_1, hostOps1]
  after_results_simp
  exact W1_of_ne m ρ c main_arg9 (by decide)

/-- The bias rows are the bias vectors reshaped `[M] → [1, M]`. -/
theorem c1_eq (c : Dev nD) : V4 m ρ c main_v67 = shapeCast S1x128 (m ((c : Thread nD τ).loc main_arg6)) shapeCasts_S128_S1x128 := by
  show StableHlo.after hostOps1_2 (StableHlo.after hostOps1_1 (StableHlo.after hostOps1 (W1 m ρ c))) (Proc.devRef .tc main_v67) = _
  simp only [hostOps1_2, hostOps1_1, hostOps1]
  after_results_simp
  rw [W1_of_ne m ρ c main_arg6 (by decide)]
  rfl
theorem c2_eq (c : Dev nD) : V4 m ρ c main_v68 = shapeCast S1x32 (m ((c : Thread nD τ).loc main_arg8)) shapeCasts_S32_S1x32 := by
  show StableHlo.after hostOps1_2 (StableHlo.after hostOps1_1 (StableHlo.after hostOps1 (W1 m ρ c))) (Proc.devRef .tc main_v68) = _
  simp only [hostOps1_2, hostOps1_1, hostOps1]
  after_results_simp
  rw [W1_of_ne m ρ c main_arg8 (by decide)]
  rfl
theorem c3_eq (c : Dev nD) : V4 m ρ c main_v69 = shapeCast S1x1 (m ((c : Thread nD τ).loc main_arg10)) shapeCasts_S1_S1x1 := by
  show StableHlo.after hostOps1_2 (StableHlo.after hostOps1_1 (StableHlo.after hostOps1 (W1 m ρ c))) (Proc.devRef .tc main_v69) = _
  simp only [hostOps1_2, hostOps1_1, hostOps1]
  after_results_simp
  rw [W1_of_ne m ρ c main_arg10 (by decide)]
  rfl

/-- A vector reshaped to one row reads, in that row, the vector. -/
theorem row_of_reshape {M : ℕ} (b : FVec Ideal ⟨1, ![M]⟩ .f32) (h : (⟨1, ![M]⟩ : Shape).ShapeCasts ⟨2, ![1, M]⟩) (q : Fin M) :
    shapeCast ⟨2, ![1, M]⟩ b h (ix2 (0 : Fin 1) q) = b (ix1 q) :=
  (shapeCast_addUnit_apply ![M] b h (ix2 (0 : Fin 1) q)).trans
    (congrArg b (funext fun a => by match a with | ⟨0, _⟩ => rfl))

theorem bias1 (c : Dev nD) (q : Fin 128) :
    Region1.c1Arr (V4 m ρ) c (ix2 (0 : Fin 1) q) = (m ((c : Thread nD τ).loc main_arg6) : FVec Ideal ⟨1, ![128]⟩ .f32) (ix1 q) := by
  show V4 m ρ c main_v67 (ix2 (0 : Fin 1) q) = _
  rw [c1_eq]
  exact row_of_reshape _ _ q
theorem bias2 (c : Dev nD) (q : Fin 32) :
    Region1.c2Arr (V4 m ρ) c (ix2 (0 : Fin 1) q) = (m ((c : Thread nD τ).loc main_arg8) : FVec Ideal ⟨1, ![32]⟩ .f32) (ix1 q) := by
  show V4 m ρ c main_v68 (ix2 (0 : Fin 1) q) = _
  rw [c2_eq]
  exact row_of_reshape _ _ q
theorem bias3 (c : Dev nD) (q : Fin 1) :
    Region1.c3Arr (V4 m ρ) c (ix2 (0 : Fin 1) q) = (m ((c : Thread nD τ).loc main_arg10) : FVec Ideal ⟨1, ![1]⟩ .f32) (ix1 q) := by
  show V4 m ρ c main_v69 (ix2 (0 : Fin 1) q) = _
  rw [c3_eq]
  exact row_of_reshape _ _ q

/-! ## The result -/

/-- The kernel's result array: the last host operation reshapes the second region's output column, which holds the
    plain program's three layers of what that region found. -/
theorem result_eq (c : Dev nD) :
    W6 m ρ c (Proc.devRef .tc main_v71)
      = shapeCast S400000
          (Region1.wholeOf (V4 m ρ) Cert.ReferenceIdeal.dot_S400000x256_S256x128_S400000x128_1_0_0_1_n_n
            Cert.ReferenceIdeal.dot_S400000x128_S128x32_S400000x32_1_0_0_1_n_n Cert.ReferenceIdeal.dot_S400000x32_S32x1_S400000x1_1_0_0_1_n_n
            Cert.ReferenceIdeal.Facts₀.bcast_S128_S1x128_1 Cert.ReferenceIdeal.Facts₀.bcast_S1x128_S400000x128_0_1 Cert.ReferenceIdeal.Facts₀.bcast_S_S400000x128
            Cert.ReferenceIdeal.Facts₀.bcast_S32_S1x32_1 Cert.ReferenceIdeal.Facts₀.bcast_S1x32_S400000x32_0_1 Cert.ReferenceIdeal.Facts₀.bcast_S_S400000x32
            Cert.ReferenceIdeal.Facts₀.bcast_S1_S1x1_1 Cert.ReferenceIdeal.Facts₀.bcast_S1x1_S400000x1_0_1
            (m ((c : Thread nD τ).loc main_arg6)) (m ((c : Thread nD τ).loc main_arg8)) (m ((c : Thread nD τ).loc main_arg10)) c)
          shapeCasts_S400000x1_S400000 := by
  have hlast : W6 m ρ c (Proc.devRef .tc main_v71)
      = shapeCast S400000 (W5 m ρ c (Proc.devRef .tc main_v70)) shapeCasts_S400000x1_S400000 := by
    show StableHlo.after hostOps2 (W5 m ρ c) (Proc.devRef .tc main_v71) = _
    simp only [hostOps2]
    after_results_simp
    rfl
  rw [hlast]
  refine congrArg (fun z => shapeCast S400000 z shapeCasts_S400000x1_S400000) ?_
  exact (W5_arr m ρ c 8).trans
    (Region1.array_eq (V4 m ρ) plainR1 plainR2 plainR3 _ _ _ c (bias1 m ρ c) (bias2 m ρ c) (bias3 m ρ c))

/-- THE VALUE: from memories that agree on the eleven arguments, the plain program's result array is the kernel's.
    The plain program's result is the reshape of its three layers of its two gathered tables; the kernel's is the
    same reshape of the same three layers of the tables the second region found. Those are the kernel's host stretch
    run from the contents the first region left — the plain program's `dot_general` in the projection's buffer — so
    they are the plain program's tables; the weights are the arguments, and so are the biases. -/
theorem value_eq (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c : Thread nD τ).loc main_arg0))
    (h1 : m' ((c.tc : Thread Cert.ReferenceIdeal.nD Cert.ReferenceIdeal.τ).loc Cert.ReferenceIdeal.main_arg1) = m ((c : Thread nD τ).loc main_arg1))
    (h2 : m' ((c.tc : Thread Cert.ReferenceIdeal.nD Cert.ReferenceIdeal.τ).loc Cert.ReferenceIdeal.main_arg2) = m ((c : Thread nD τ).loc main_arg2))
    (h3 : m' ((c.tc : Thread Cert.ReferenceIdeal.nD Cert.ReferenceIdeal.τ).loc Cert.ReferenceIdeal.main_arg3) = m ((c : Thread nD τ).loc main_arg3))
    (h4 : m' ((c.tc : Thread Cert.ReferenceIdeal.nD Cert.ReferenceIdeal.τ).loc Cert.ReferenceIdeal.main_arg4) = m ((c : Thread nD τ).loc main_arg4))
    (h5 : m' ((c.tc : Thread Cert.ReferenceIdeal.nD Cert.ReferenceIdeal.τ).loc Cert.ReferenceIdeal.main_arg5) = m ((c : Thread nD τ).loc main_arg5))
    (h6 : m' ((c.tc : Thread Cert.ReferenceIdeal.nD Cert.ReferenceIdeal.τ).loc Cert.ReferenceIdeal.main_arg6) = m ((c : Thread nD τ).loc main_arg6))
    (h7 : m' ((c.tc : Thread Cert.ReferenceIdeal.nD Cert.ReferenceIdeal.τ).loc Cert.ReferenceIdeal.main_arg7) = m ((c : Thread nD τ).loc main_arg7))
    (h8 : m' ((c.tc : Thread Cert.ReferenceIdeal.nD Cert.ReferenceIdeal.τ).loc Cert.ReferenceIdeal.main_arg8) = m ((c : Thread nD τ).loc main_arg8))
    (h9 : m' ((c.tc : Thread Cert.ReferenceIdeal.nD Cert.ReferenceIdeal.τ).loc Cert.ReferenceIdeal.main_arg9) = m ((c : Thread nD τ).loc main_arg9))
    (h10 : m' ((c.tc : Thread Cert.ReferenceIdeal.nD Cert.ReferenceIdeal.τ).loc Cert.ReferenceIdeal.main_arg10) = m ((c : Thread nD τ).loc main_arg10)) :
    Cert.ReferenceIdeal.Value.res_main_v82 (F := Ideal) m' c = W6 m ρ c (Proc.devRef .tc main_v71) := by
  rw [result_eq, Cert.Stretch.ref_shape]
  refine congrArg (fun z => shapeCast S400000 z shapeCasts_S400000x1_S400000)
    (whole_congr ?_ ?_ (h5.trans (w1_eq m ρ c).symm) h6 (h7.trans (w2_eq m ρ c).symm) h8
      (h9.trans (w3_eq m ρ c).symm) h10)
  · exact (Cert.Stretch.hd_of_stretch (W1 m ρ c) m' c
      ((proj_eq m ρ c).trans (by rw [h0, h3])) ((W1_arg1 m ρ c).trans h1.symm) ((W1_arg2 m ρ c).trans h2.symm)
      ((W1_arg4 m ρ c).trans h4.symm)).symm
  · exact (Cert.Stretch.hs_of_stretch (W1 m ρ c) m' c
      ((proj_eq m ρ c).trans (by rw [h0, h3])) ((W1_arg1 m ρ c).trans h1.symm) ((W1_arg2 m ρ c).trans h2.symm)
      ((W1_arg4 m ρ c).trans h4.symm)).symm

end Cert.Bridge

end
-- ==== Proof.lean ====
/-
  The certificate: a graph-convolution layer followed by a three-layer perceptron on pairs of nodes, as a tiled
  kernel program and as a plain array program, compute the same function over the extended reals.

  Both programs form `x · W`, normalise and scatter its rows along the edges (with self loops), add a bias, gather the
  rows at the two ends of every query pair, subtract them, and apply three dense layers with a clamp at zero after the
  first two. The kernel program does the projection and the three layers on the matrix unit, tile by tile over the
  rows, with operands narrowed to bf16; the plain program uses one `dot_general` each.

  At the ideal values narrowing is the identity and a product into zeros is the textbook sum, each tile's rows depend
  on the same rows of the operands only, and the tiles partition the rows: so each region leaves in its output array
  exactly what the plain program's operations compute (Proof/KRegion0.lean, Proof/KRegion1.lean over
  Proof/Layers.lean). The scatter and gather stretch between the two regions is the same operations in both programs
  and is carried as it stands (Proof/Bridge.lean). No step uses a law that fails at infinities, so the precondition
  (finite inputs) is not opened.

  The three frame claims are the programs' runs: the two kernel programs' by their launch over the regions and host
  stretches, the plain program's by its run read back. `preserves` has no entry to state: the kernel's idealization
  is its own text read at the ideal values.
-/
import proofs.«144195_j8048768712805_1_alg».proof.Defs
import proofs.«144195_j8048768712805_1_alg».proof.Proof.Gen.Kernel
import proofs.«144195_j8048768712805_1_alg».proof.Proof.Gen.Kernel.Skeleton
import proofs.«144195_j8048768712805_1_alg».proof.Proof.Gen.Kernel.Launch
import proofs.«144195_j8048768712805_1_alg».proof.Proof.Gen.Kernel.Points
import proofs.«144195_j8048768712805_1_alg».proof.Proof.Gen.Kernel.Frame
import proofs.«144195_j8048768712805_1_alg».proof.Proof.Gen.KernelIdeal
import proofs.«144195_j8048768712805_1_alg».proof.Proof.Gen.KernelIdeal.Skeleton
import proofs.«144195_j8048768712805_1_alg».proof.Proof.Gen.KernelIdeal.Launch
import proofs.«144195_j8048768712805_1_alg».proof.Proof.Gen.KernelIdeal.Points
import proofs.«144195_j8048768712805_1_alg».proof.Proof.Gen.KernelIdeal.Frame
import proofs.«144195_j8048768712805_1_alg».proof.Proof.Gen.ReferenceIdeal
import proofs.«144195_j8048768712805_1_alg».proof.Proof.Gen.Pre_finite_inputs
import proofs.«144195_j8048768712805_1_alg».proof.Proof.RefRun
import proofs.«144195_j8048768712805_1_alg».proof.Proof.KRun
import proofs.«144195_j8048768712805_1_alg».proof.Proof.Bridge
import Idealize.ShloMosaic.Adequacy
import Idealize.ShloMosaic.Init

noncomputable section

namespace Cert.Proof

open Idealize.ShloMosaic Idealize.SL.Sem

/-- The kernel program as printed runs and leaves its arguments as launched. -/
theorem frame_kernel : Cert.frame_Kernel := fun m ρ _ => Cert.Kernel.Gen.frame m ρ

/-- So does the kernel program read at the ideal values. -/
theorem frame_kernelIdeal : Cert.frame_KernelIdeal := fun m ρ _ => Cert.KernelIdeal.Gen.frame m ρ

/-- The plain program's run, with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs run, and from memories that agree on the arguments their result arrays are equal: the kernel
    program's is what the fold through its regions and host stretches leaves in the result buffer, the plain
    program's its composed term, and the two are one function of the arguments (`Cert.Bridge.value_eq`). -/
theorem algebraic : Cert.algebraic_KernelIdeal_ReferenceIdeal := by
  intro m ρ m' ρ' _ hagree
  refine ⟨fun c => Cert.KernelIdeal.Gen.W6 m ρ c (Proc.devRef .tc Cert.KernelIdeal.main_v71),
    Cert.KernelIdeal.RunValue.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  exact Cert.Bridge.value_eq m ρ m' c h0 h1 h2 h3 h4 h5 h6 h7 h8 h9 h10

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
